-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg11 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_cst_20 : FVec F S_ .f32 := constant S_ .f32 0x00000000#32
  let main_v54 : FVec F S256 .f32 := broadcastInDim S256 ![] bcast_S_S256 main_cst_20
  let main_v55 : IVec S256 1 := cmpf .oge main_arg11 main_v54
  let main_c_21 : IVec S_ 1 := constantI S_ 1 1#1
  let main_v56 : IVec S_ 1 := (fun x v => Host.reduce IntOp.andi x v reducesTo_S256_S_d0 h_S_) main_v55 main_c_21
  let main_v57 : IVec S_ 1 := andi main_v53 main_v56
  main_v57

def fn_part2 {F : FTy → Type} [FloatOps F] (main_arg8 : FVec F S256 .f32) (main_arg9 : FVec F S256 .f32) (main_arg10 : FVec F S256 .f32) (main_arg11 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg11 main_v48 main_v49 main_v50

def fn_part1 {F : FTy → Type} [FloatOps F] (main_arg5 : FVec F S256x256 .f32) (main_arg6 : FVec F S256 .f32) (main_arg7 : FVec F S256x256 .f32) (main_arg8 : FVec F S256 .f32) (main_arg9 : FVec F S256 .f32) (main_arg10 : FVec F S256 .f32) (main_arg11 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x640000 32) (main_arg2 : FVec F S128x256 .f32) (main_arg3 : FVec F S256 .f32) (main_arg4 : FVec F S128x256 .f32) (main_arg5 : FVec F S256x256 .f32) (main_arg6 : FVec F S256 .f32) (main_arg7 : FVec F S256x256 .f32) (main_arg8 : FVec F S256 .f32) (main_arg9 : FVec F S256 .f32) (main_arg10 : FVec F S256 .f32) (main_arg11 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S50000x1 : Shape := ⟨2, ![50000, 1]⟩
abbrev S640000x128 : Shape := ⟨2, ![640000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S2000 : Shape := ⟨1, ![2000]⟩
abbrev S2000x1 : Shape := ⟨2, ![2000, 1]⟩
abbrev S640000x256 : Shape := ⟨2, ![640000, 256]⟩

abbrev nBuf : Space → Nat
  | .hbm => 63
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S_, .f32⟩
  | .hbm, ⟨17, _⟩ => ⟨S640000x1, .f32⟩
  | .hbm, ⟨18, _⟩ => ⟨S_, .f32⟩
  | .hbm, ⟨19, _⟩ => ⟨S50000x1, .f32⟩
  | .hbm, ⟨20, _⟩ => ⟨S640000x1, .i32⟩
  | .hbm, ⟨21, _⟩ => ⟨S50000x1, .f32⟩
  | .hbm, ⟨22, _⟩ => ⟨S_, .f32⟩
  | .hbm, ⟨23, _⟩ => ⟨S50000x1, .f32⟩
  | .hbm, ⟨24, _⟩ => ⟨S50000x1, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S_, .f32⟩
  | .hbm, ⟨35, _⟩ => ⟨S50000x128, .f32⟩
  | .hbm, ⟨36, _⟩ => ⟨S640000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S50000x256, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x256, .f32⟩
  | .hbm, ⟨55, _⟩ => ⟨S_, .f32⟩
  | .hbm, ⟨56, _⟩ => ⟨S50000x256, .f32⟩
  | .hbm, ⟨57, _⟩ => ⟨S640000x1, .i32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S1x256, .f32⟩
  | .hbm, ⟨62, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S256x256, .f32⟩
  | .local _ .vmem, ⟨18, _⟩ => ⟨S1x256, .f32⟩
  | .local _ .vmem, ⟨19, _⟩ => ⟨S256x256, .f32⟩
  | .local _ .vmem, ⟨20, _⟩ => ⟨S2000x256, .f32⟩
  | .local _ .vmem, ⟨21, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000x1 : S_.BroadcastsInDim S640000x1 (![] : Fin 0 → Fin S640000x1.rank)
  bcast_S_S50000x1 : S_.BroadcastsInDim S50000x1 (![] : Fin 0 → Fin S50000x1.rank)
  bcast_S640000_S640000x1_0 : S640000.BroadcastsInDim S640000x1 (![0] : Fin 1 → Fin S640000x1.rank)
  bcast_S_S640000 : S_.BroadcastsInDim S640000 (![] : Fin 0 → Fin S640000.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  scatter_S50000x1_S640000x1_S640000x1_1_0_0_1_wf : ScatterDims.WF S50000x1 S640000x1 S640000x1 [1] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S2000x128_S128x256_S2000x256_1_0_0_1_n_n_wf : DotDims.WF S2000x128 S128x256 S2000x256 [1] [0] [0] [1] [] []
  gather_S50000x256_S640000x1_S640000x256_1_0_n_n_0_1_1256_wf : GatherDims.WF S50000x256 S640000x1 S640000x256 [1] [0] [] [0] [] 1 ![1, 256]
  scatter_S50000x256_S640000x1_S640000x256_1_0_0_1_wf : ScatterDims.WF S50000x256 S640000x1 S640000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S50000x256.size a
  hwx0_9 : ∀ i : grid0.Coords, EltTy.bits .f32 = 32 ∨ (Rect.block (s := S50000x256) S2000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)

variable [Facts₀]

def scatter_S50000x1_S640000x1_S640000x1_1_0_0_1 : ScatterDims S50000x1 S640000x1 S640000x1 where
  updateWindowDims := [1]
  insertedWindowDims := [0]
  scatterDimsToOperandDims := [0]
  indexVectorDim := 1
  wf := scatter_S50000x1_S640000x1_S640000x1_1_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def scatter_S50000x256_S640000x1_S640000x256_1_0_0_1 : ScatterDims S50000x256 S640000x1 S640000x256 where
  updateWindowDims := [1]
  insertedWindowDims := [0]
  scatterDimsToOperandDims := [0]
  indexVectorDim := 1
  wf := scatter_S50000x256_S640000x1_S640000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S2000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v39) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000x1 : Shape := ⟨2, ![50000, 1]⟩
abbrev S50000x256 : Shape := ⟨2, ![50000, 256]⟩
abbrev S1x256 : Shape := ⟨2, ![1, 256]⟩
abbrev S50000 : Shape := ⟨1, ![50000]⟩
abbrev S640000x256 : Shape := ⟨2, ![640000, 256]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x128, .f32⟩
  | .hbm, ⟨25, _⟩ => ⟨S_, .f32⟩
  | .hbm, ⟨26, _⟩ => ⟨S50000x128, .f32⟩
  | .hbm, ⟨27, _⟩ => ⟨S640000x1, .i32⟩
  | .hbm, ⟨28, _⟩ => ⟨S50000x128, .f32⟩
  | .hbm, ⟨29, _⟩ => ⟨S_, .f32⟩
  | .hbm, ⟨30, _⟩ => ⟨S640000x1, .f32⟩
  | .hbm, ⟨31, _⟩ => ⟨S_, .f32⟩
  | .hbm, ⟨32, _⟩ => ⟨S50000x1, .f32⟩
  | .hbm, ⟨33, _⟩ => ⟨S640000x1, .i32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S_, .f32⟩
  | .hbm, ⟨48, _⟩ => ⟨S50000, .f32⟩
  | .hbm, ⟨49, _⟩ => ⟨S50000x1, .f32⟩
  | .hbm, ⟨50, _⟩ => ⟨S50000x1, .f32⟩
  | .hbm, ⟨51, _⟩ => ⟨S_, .f32⟩
  | .hbm, ⟨52, _⟩ => ⟨S50000x1, .f32⟩
  | .hbm, ⟨53, _⟩ => ⟨S50000x1, .f32⟩
  | .hbm, ⟨54, _⟩ => ⟨S50000x256, .f32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S_, .f32⟩
  | .hbm, ⟨71, _⟩ => ⟨S50000x256, .f32⟩
  | .hbm, ⟨72, _⟩ => ⟨S50000x256, .f32⟩
  | .hbm, ⟨73, _⟩ => ⟨S_, .i32⟩
  | .hbm, ⟨74, _⟩ => ⟨S640000, .i32⟩
  | .hbm, ⟨75, _⟩ => ⟨S640000, .i1⟩
  | .hbm, ⟨76, _⟩ => ⟨S_, .i32⟩
  | .hbm, ⟨77, _⟩ => ⟨S640000, .i32⟩
  | .hbm, ⟨78, _⟩ => ⟨S640000, .i32⟩
  | .hbm, ⟨79, _⟩ => ⟨S640000, .i32⟩
  | .hbm, ⟨80, _⟩ => ⟨S640000x1, .i32⟩
  | .hbm, ⟨81, _⟩ => ⟨S640000x256, .f32⟩
  | .hbm, ⟨82, _⟩ => ⟨S_, .f32⟩
  | .hbm, ⟨83, _⟩ => ⟨S50000x256, .f32⟩
  | .hbm, ⟨84, _⟩ => ⟨S640000x1, .i32⟩
  | .hbm, ⟨85, _⟩ => ⟨S50000x256, .f32⟩
  | .hbm, ⟨86, _⟩ => ⟨S_, .f32⟩
  | .hbm, ⟨87, _⟩ => ⟨S640000x1, .f32⟩
  | .hbm, ⟨88, _⟩ => ⟨S_, .f32⟩
  | .hbm, ⟨89, _⟩ => ⟨S50000x1, .f32⟩
  | .hbm, ⟨90, _⟩ => ⟨S640000x1, .i32⟩
  | .hbm, ⟨91, _⟩ => ⟨S50000x1, .f32⟩
  | .hbm, ⟨92, _⟩ => ⟨S_, .f32⟩
  | .hbm, ⟨93, _⟩ => ⟨S50000x1, .f32⟩
  | .hbm, ⟨94, _⟩ => ⟨S50000x1, .f32⟩
  | .hbm, ⟨95, _⟩ => ⟨S50000x256, .f32⟩
  | .hbm, ⟨96, _⟩ => ⟨S50000x256, .f32⟩
  | .hbm, ⟨97, _⟩ => ⟨S50000x256, .f32⟩
  | .hbm, ⟨98, _⟩ => ⟨S1x256, .f32⟩
  | .hbm, ⟨99, _⟩ => ⟨S50000x256, .f32⟩
  | .hbm, ⟨100, _⟩ => ⟨S50000x256, .f32⟩
  | .hbm, ⟨101, _⟩ => ⟨S50000x256, .f32⟩
  | .hbm, ⟨102, _⟩ => ⟨S50000x256, .f32⟩
  | .hbm, ⟨103, _⟩ => ⟨S50000x256, .f32⟩
  | .hbm, ⟨104, _⟩ => ⟨S_, .f32⟩
  | .hbm, ⟨105, _⟩ => ⟨S50000, .f32⟩
  | .hbm, ⟨106, _⟩ => ⟨S50000x1, .f32⟩
  | .hbm, ⟨107, _⟩ => ⟨S50000x1, .f32⟩
  | .hbm, ⟨108, _⟩ => ⟨S_, .f32⟩
  | .hbm, ⟨109, _⟩ => ⟨S50000x1, .f32⟩
  | .hbm, ⟨110, _⟩ => ⟨S50000x1, .f32⟩
  | .hbm, ⟨111, _⟩ => ⟨S50000x256, .f32⟩
  | .hbm, ⟨112, _⟩ => ⟨S50000x256, .f32⟩
  | .hbm, ⟨113, _⟩ => ⟨S50000x256, .f32⟩
  | .hbm, ⟨114, _⟩ => ⟨S_, .f32⟩
  | .hbm, ⟨115, _⟩ => ⟨S50000, .f32⟩
  | .hbm, ⟨116, _⟩ => ⟨S50000x1, .f32⟩
  | .hbm, ⟨117, _⟩ => ⟨S50000x1, .f32⟩
  | .hbm, ⟨118, _⟩ => ⟨S_, .f32⟩
  | .hbm, ⟨119, _⟩ => ⟨S50000x1, .f32⟩
  | .hbm, ⟨120, _⟩ => ⟨S50000x1, .f32⟩
  | .hbm, ⟨121, _⟩ => ⟨S50000x256, .f32⟩
  | .hbm, ⟨122, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call0_cst : Ref sig .tc := ⟨.hbm, 70, rfl⟩
abbrev main_call0_v0 : Ref sig .tc := ⟨.hbm, 71, rfl⟩
abbrev main_v49 : Ref sig .tc := ⟨.hbm, 72, rfl⟩
abbrev main_c_7 : Ref sig .tc := ⟨.hbm, 73, rfl⟩
abbrev main_v50 : Ref sig .tc := ⟨.hbm, 74, rfl⟩
abbrev main_v51 : Ref sig .tc := ⟨.hbm, 75, rfl⟩
abbrev main_c_8 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_12 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_13 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_15 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_16 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S640000x1 : S_.BroadcastsInDim S640000x1 (![] : Fin 0 → Fin S640000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S256 : S_.BroadcastsInDim S256 (![] : Fin 0 → Fin S256.rank)
  bcast_S_S50000x256 : S_.BroadcastsInDim S50000x256 (![] : Fin 0 → Fin S50000x256.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000x1_S640000x1_S640000x1_1_0_0_1_wf : ScatterDims.WF S50000x1 S640000x1 S640000x1 [1] [0] [0] 1
  dot_S50000x128_S128x256_S50000x256_1_0_0_1_n_n_wf : DotDims.WF S50000x128 S128x256 S50000x256 [1] [0] [0] [1] [] []
  gather_S50000x256_S640000x1_S640000x256_1_0_n_n_0_1_1256_wf : GatherDims.WF S50000x256 S640000x1 S640000x256 [1] [0] [] [0] [] 1 ![1, 256]
  scatter_S50000x256_S640000x1_S640000x256_1_0_0_1_wf : ScatterDims.WF S50000x256 S640000x1 S640000x256 [1] [0] [0] 1
  dot_S50000x256_S256x256_S50000x256_1_0_0_1_n_n_wf : DotDims.WF S50000x256 S256x256 S50000x256 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000x1_S640000x1_S640000x1_1_0_0_1 : ScatterDims S50000x1 S640000x1 S640000x1 where
  updateWindowDims := [1]
  insertedWindowDims := [0]
  scatterDimsToOperandDims := [0]
  indexVectorDim := 1
  wf := scatter_S50000x1_S640000x1_S640000x1_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def scatter_S50000x256_S640000x1_S640000x256_1_0_0_1 : ScatterDims S50000x256 S640000x1 S640000x256 where
  updateWindowDims := [1]
  insertedWindowDims := [0]
  scatterDimsToOperandDims := [0]
  indexVectorDim := 1
  wf := scatter_S50000x256_S640000x1_S640000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.RefRun.lean ====
/-
  The reference program's run: every weakly fair execution of its straight line of host operations terminates, the
  result buffer holding the last stage `val_main_v89` of the arguments' launch contents and the arguments unchanged.
  The buffer contents after the whole line are the fold of the operations' results; the fold is read in stretches,
  each stretch's outputs as stages of its inputs, the buffers a stretch does not write carried across it.
-/
import proofs.«104896_j3023656976611_1_alg».proof.Proof.RefReadP
import Idealize.ShloMosaic.Lib.Pipeline.Frame

set_option maxRecDepth 16384

noncomputable section

namespace Cert.RefRun

open Cert.ReferenceIdeal Cert.ReferenceIdeal.Gen Cert.ReferenceIdeal.RunP Cert.ReferenceIdeal.ReadP
open Idealize.ShloMosaic Idealize.ShloMosaic.TcCoe Idealize.SL.Sem Idealize.ShloMosaic.StableHlo

variable {F : FTy → Type} [FloatOps F]

/-! ## The line in four stretches

The first ends at the first aggregation (the mean of the neighbours' rows), the second at the hidden array, the third at
the second aggregation, the fourth at the result. Each is a literal list, so that the fold over it computes. -/

abbrev s1 : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_c (constantI S_ 32 0#32),
    unary main_c main_v4 (broadcastInDim S640000 ![] bcast_S_S640000 : (⟨S_, .i32⟩ : BufTy).Contents (Elt F) → (⟨S640000, .i32⟩ : BufTy).Contents (Elt F)),
    binary main_v1 main_v4 main_v5 (cmpi .slt : (⟨S640000, .i32⟩ : BufTy).Contents (Elt F) → (⟨S640000, .i32⟩ : BufTy).Contents (Elt F) → (⟨S640000, .i1⟩ : BufTy).Contents (Elt F)),
    nullary main_c_0 (constantI S_ 32 50000#32),
    unary main_c_0 main_v6 (broadcastInDim S640000 ![] bcast_S_S640000 : (⟨S_, .i32⟩ : BufTy).Contents (Elt F) → (⟨S640000, .i32⟩ : BufTy).Contents (Elt F)),
    binary main_v1 main_v6 main_v7 (addi : (⟨S640000, .i32⟩ : BufTy).Contents (Elt F) → (⟨S640000, .i32⟩ : BufTy).Contents (Elt F) → (⟨S640000, .i32⟩ : BufTy).Contents (Elt F)),
    ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v8 main_v9 (broadcastInDim S640000x1 ![0] bcast_S640000_S640000x1_0 : (⟨S640000, .i32⟩ : BufTy).Contents (Elt F) → (⟨S640000x1, .i32⟩ : BufTy).Contents (Elt F)),
    binary main_arg0 main_v9 main_v10 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S640000x1 ![0] bcast_S640000_S640000x1_0 : (⟨S640000, .i32⟩ : BufTy).Contents (Elt F) → (⟨S640000x1, .i32⟩ : BufTy).Contents (Elt F)),
    ternary main_v11 main_v12 main_v10 main_v13 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    nullary main_cst_1 (constant S_ .f32 0x3F800000#32),
    unary main_cst_1 main_v14 (broadcastInDim S640000x1 ![] bcast_S_S640000x1 : (⟨S_, .f32⟩ : BufTy).Contents (Elt F) → (⟨S640000x1, .f32⟩ : BufTy).Contents (Elt F)),
    nullary main_cst_2 (constant S_ .f32 0x00000000#32),
    unary main_cst_2 main_v15 (broadcastInDim S50000x1 ![] bcast_S_S50000x1 : (⟨S_, .f32⟩ : BufTy).Contents (Elt F) → (⟨S50000x1, .f32⟩ : BufTy).Contents (Elt F)),
    unary main_v3 main_v16 (broadcastInDim S640000x1 ![0] bcast_S640000_S640000x1_0 : (⟨S640000, .i32⟩ : BufTy).Contents (Elt F) → (⟨S640000x1, .i32⟩ : BufTy).Contents (Elt F)),
    ternary main_v15 main_v16 main_v14 main_v17 ((fun x i u => Host.scatterAdd scatter_S50000x1_S640000x1_S640000x1_1_0_0_1 x i u) : (⟨S50000x1, .f32⟩ : BufTy).Contents (Elt F) → (⟨S640000x1, .i32⟩ : BufTy).Contents (Elt F) → (⟨S640000x1, .f32⟩ : BufTy).Contents (Elt F) → (⟨S50000x1, .f32⟩ : BufTy).Contents (Elt F)),
    nullary main_cst_3 (constant S_ .f32 0x3F800000#32),
    unary main_cst_3 main_v18 (broadcastInDim S50000x1 ![] bcast_S_S50000x1 : (⟨S_, .f32⟩ : BufTy).Contents (Elt F) → (⟨S50000x1, .f32⟩ : BufTy).Contents (Elt F)),
    binary main_v17 main_v18 main_v19 (maximumf : (⟨S50000x1, .f32⟩ : BufTy).Contents (Elt F) → (⟨S50000x1, .f32⟩ : BufTy).Contents (Elt F) → (⟨S50000x1, .f32⟩ : BufTy).Contents (Elt F)),
    unary main_v19 main_v20 (broadcastInDim S50000x128 ![0, 1] bcast_S50000x1_S50000x128_0_1 : (⟨S50000x1, .f32⟩ : BufTy).Contents (Elt F) → (⟨S50000x128, .f32⟩ : BufTy).Contents (Elt F)),
    binary main_v13 main_v20 main_v21 (Host.divf : (⟨S50000x128, .f32⟩ : BufTy).Contents (Elt F) → (⟨S50000x128, .f32⟩ : BufTy).Contents (Elt F) → (⟨S50000x128, .f32⟩ : BufTy).Contents (Elt F)) ]

abbrev s2 : List (HloOp τ sig (Elt F)) :=
  [ binary main_v21 main_arg2 main_v22 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg3 main_v23 (broadcastInDim S1x256 ![1] bcast_S256_S1x256_1 : (⟨S256, .f32⟩ : BufTy).Contents (Elt F) → (⟨S1x256, .f32⟩ : BufTy).Contents (Elt F)),
    unary main_v23 main_v24 (broadcastInDim S50000x256 ![0, 1] bcast_S1x256_S50000x256_0_1 : (⟨S1x256, .f32⟩ : BufTy).Contents (Elt F) → (⟨S50000x256, .f32⟩ : BufTy).Contents (Elt F)),
    binary main_v22 main_v24 main_v25 (addf : (⟨S50000x256, .f32⟩ : BufTy).Contents (Elt F) → (⟨S50000x256, .f32⟩ : BufTy).Contents (Elt F) → (⟨S50000x256, .f32⟩ : BufTy).Contents (Elt F)),
    binary main_arg0 main_arg4 main_v26 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    binary main_v25 main_v26 main_v27 (addf : (⟨S50000x256, .f32⟩ : BufTy).Contents (Elt F) → (⟨S50000x256, .f32⟩ : BufTy).Contents (Elt F) → (⟨S50000x256, .f32⟩ : BufTy).Contents (Elt F)),
    binary main_v27 main_v27 main_v28 (mulf : (⟨S50000x256, .f32⟩ : BufTy).Contents (Elt F) → (⟨S50000x256, .f32⟩ : BufTy).Contents (Elt F) → (⟨S50000x256, .f32⟩ : BufTy).Contents (Elt F)),
    nullary main_cst_4 (constant S_ .f32 0x00000000#32),
    binary main_v28 main_cst_4 main_v29 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v29 main_v30 (broadcastInDim S50000x1 ![0] bcast_S50000_S50000x1_0 : (⟨S50000, .f32⟩ : BufTy).Contents (Elt F) → (⟨S50000x1, .f32⟩ : BufTy).Contents (Elt F)),
    unary main_v30 main_v31 (Host.sqrt : (⟨S50000x1, .f32⟩ : BufTy).Contents (Elt F) → (⟨S50000x1, .f32⟩ : BufTy).Contents (Elt F)),
    nullary main_cst_5 (constant S_ .f32 0x2B8CBCCC#32),
    unary main_cst_5 main_v32 (broadcastInDim S50000x1 ![] bcast_S_S50000x1 : (⟨S_, .f32⟩ : BufTy).Contents (Elt F) → (⟨S50000x1, .f32⟩ : BufTy).Contents (Elt F)),
    binary main_v31 main_v32 main_v33 (maximumf : (⟨S50000x1, .f32⟩ : BufTy).Contents (Elt F) → (⟨S50000x1, .f32⟩ : BufTy).Contents (Elt F) → (⟨S50000x1, .f32⟩ : BufTy).Contents (Elt F)),
    unary main_v33 main_v34 (broadcastInDim S50000x256 ![0, 1] bcast_S50000x1_S50000x256_0_1 : (⟨S50000x1, .f32⟩ : BufTy).Contents (Elt F) → (⟨S50000x256, .f32⟩ : BufTy).Contents (Elt F)),
    binary main_v27 main_v34 main_v35 (Host.divf : (⟨S50000x256, .f32⟩ : BufTy).Contents (Elt F) → (⟨S50000x256, .f32⟩ : BufTy).Contents (Elt F) → (⟨S50000x256, .f32⟩ : BufTy).Contents (Elt F)),
    unary main_arg10 main_v36 (broadcastInDim S1x256 ![1] bcast_S256_S1x256_1 : (⟨S256, .f32⟩ : BufTy).Contents (Elt F) → (⟨S1x256, .f32⟩ : BufTy).Contents (Elt F)),
    unary main_v36 main_v37 (broadcastInDim S50000x256 ![0, 1] bcast_S1x256_S50000x256_0_1 : (⟨S1x256, .f32⟩ : BufTy).Contents (Elt F) → (⟨S50000x256, .f32⟩ : BufTy).Contents (Elt F)),
    binary main_v35 main_v37 main_v38 (subf : (⟨S50000x256, .f32⟩ : BufTy).Contents (Elt F) → (⟨S50000x256, .f32⟩ : BufTy).Contents (Elt F) → (⟨S50000x256, .f32⟩ : BufTy).Contents (Elt F)),
    nullary main_cst_6 (constant S_ .f32 0x3727C5AC#32),
    unary main_cst_6 main_v39 (broadcastInDim S256 ![] bcast_S_S256 : (⟨S_, .f32⟩ : BufTy).Contents (Elt F) → (⟨S256, .f32⟩ : BufTy).Contents (Elt F)),
    binary main_arg11 main_v39 main_v40 (addf : (⟨S256, .f32⟩ : BufTy).Contents (Elt F) → (⟨S256, .f32⟩ : BufTy).Contents (Elt F) → (⟨S256, .f32⟩ : BufTy).Contents (Elt F)),
    unary main_v40 main_v41 (Host.sqrt : (⟨S256, .f32⟩ : BufTy).Contents (Elt F) → (⟨S256, .f32⟩ : BufTy).Contents (Elt F)),
    binary main_arg8 main_v41 main_v42 (Host.divf : (⟨S256, .f32⟩ : BufTy).Contents (Elt F) → (⟨S256, .f32⟩ : BufTy).Contents (Elt F) → (⟨S256, .f32⟩ : BufTy).Contents (Elt F)),
    unary main_v42 main_v43 (broadcastInDim S1x256 ![1] bcast_S256_S1x256_1 : (⟨S256, .f32⟩ : BufTy).Contents (Elt F) → (⟨S1x256, .f32⟩ : BufTy).Contents (Elt F)),
    unary main_v43 main_v44 (broadcastInDim S50000x256 ![0, 1] bcast_S1x256_S50000x256_0_1 : (⟨S1x256, .f32⟩ : BufTy).Contents (Elt F) → (⟨S50000x256, .f32⟩ : BufTy).Contents (Elt F)),
    binary main_v38 main_v44 main_v45 (mulf : (⟨S50000x256, .f32⟩ : BufTy).Contents (Elt F) → (⟨S50000x256, .f32⟩ : BufTy).Contents (Elt F) → (⟨S50000x256, .f32⟩ : BufTy).Contents (Elt F)),
    unary main_arg9 main_v46 (broadcastInDim S1x256 ![1] bcast_S256_S1x256_1 : (⟨S256, .f32⟩ : BufTy).Contents (Elt F) → (⟨S1x256, .f32⟩ : BufTy).Contents (Elt F)),
    unary main_v46 main_v47 (broadcastInDim S50000x256 ![0, 1] bcast_S1x256_S50000x256_0_1 : (⟨S1x256, .f32⟩ : BufTy).Contents (Elt F) → (⟨S50000x256, .f32⟩ : BufTy).Contents (Elt F)),
    binary main_v45 main_v47 main_v48 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v48) (TRef.of (T := ⟨S50000x256, .f32⟩) main_call0_v0) (TRef.of (T := ⟨S50000x256, .f32⟩) main_v49) maximumf ]

abbrev s3 : List (HloOp τ sig (Elt F)) :=
  [ nullary main_c_7 (constantI S_ 32 0#32),
    unary main_c_7 main_v50 (broadcastInDim S640000 ![] bcast_S_S640000 : (⟨S_, .i32⟩ : BufTy).Contents (Elt F) → (⟨S640000, .i32⟩ : BufTy).Contents (Elt F)),
    binary main_v1 main_v50 main_v51 (cmpi .slt : (⟨S640000, .i32⟩ : BufTy).Contents (Elt F) → (⟨S640000, .i32⟩ : BufTy).Contents (Elt F) → (⟨S640000, .i1⟩ : BufTy).Contents (Elt F)),
    nullary main_c_8 (constantI S_ 32 50000#32),
    unary main_c_8 main_v52 (broadcastInDim S640000 ![] bcast_S_S640000 : (⟨S_, .i32⟩ : BufTy).Contents (Elt F) → (⟨S640000, .i32⟩ : BufTy).Contents (Elt F)),
    binary main_v1 main_v52 main_v53 (addi : (⟨S640000, .i32⟩ : BufTy).Contents (Elt F) → (⟨S640000, .i32⟩ : BufTy).Contents (Elt F) → (⟨S640000, .i32⟩ : BufTy).Contents (Elt F)),
    ternary main_v51 main_v53 main_v1 main_v54 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v54 main_v55 (broadcastInDim S640000x1 ![0] bcast_S640000_S640000x1_0 : (⟨S640000, .i32⟩ : BufTy).Contents (Elt F) → (⟨S640000x1, .i32⟩ : BufTy).Contents (Elt F)),
    binary main_v49 main_v55 main_v56 ((fun x i => Host.gather gather_S50000x256_S640000x1_S640000x256_1_0_n_n_0_1_1256 x i) : (⟨S50000x256, .f32⟩ : BufTy).Contents (Elt F) → (⟨S640000x1, .i32⟩ : BufTy).Contents (Elt F) → (⟨S640000x256, .f32⟩ : BufTy).Contents (Elt F)),
    nullary main_cst_9 (constant S_ .f32 0x00000000#32),
    unary main_cst_9 main_v57 (broadcastInDim S50000x256 ![] bcast_S_S50000x256 : (⟨S_, .f32⟩ : BufTy).Contents (Elt F) → (⟨S50000x256, .f32⟩ : BufTy).Contents (Elt F)),
    unary main_v3 main_v58 (broadcastInDim S640000x1 ![0] bcast_S640000_S640000x1_0 : (⟨S640000, .i32⟩ : BufTy).Contents (Elt F) → (⟨S640000x1, .i32⟩ : BufTy).Contents (Elt F)),
    ternary main_v57 main_v58 main_v56 main_v59 ((fun x i u => Host.scatterAdd scatter_S50000x256_S640000x1_S640000x256_1_0_0_1 x i u) : (⟨S50000x256, .f32⟩ : BufTy).Contents (Elt F) → (⟨S640000x1, .i32⟩ : BufTy).Contents (Elt F) → (⟨S640000x256, .f32⟩ : BufTy).Contents (Elt F) → (⟨S50000x256, .f32⟩ : BufTy).Contents (Elt F)),
    nullary main_cst_10 (constant S_ .f32 0x3F800000#32),
    unary main_cst_10 main_v60 (broadcastInDim S640000x1 ![] bcast_S_S640000x1 : (⟨S_, .f32⟩ : BufTy).Contents (Elt F) → (⟨S640000x1, .f32⟩ : BufTy).Contents (Elt F)),
    nullary main_cst_11 (constant S_ .f32 0x00000000#32),
    unary main_cst_11 main_v61 (broadcastInDim S50000x1 ![] bcast_S_S50000x1 : (⟨S_, .f32⟩ : BufTy).Contents (Elt F) → (⟨S50000x1, .f32⟩ : BufTy).Contents (Elt F)),
    unary main_v3 main_v62 (broadcastInDim S640000x1 ![0] bcast_S640000_S640000x1_0 : (⟨S640000, .i32⟩ : BufTy).Contents (Elt F) → (⟨S640000x1, .i32⟩ : BufTy).Contents (Elt F)),
    ternary main_v61 main_v62 main_v60 main_v63 ((fun x i u => Host.scatterAdd scatter_S50000x1_S640000x1_S640000x1_1_0_0_1 x i u) : (⟨S50000x1, .f32⟩ : BufTy).Contents (Elt F) → (⟨S640000x1, .i32⟩ : BufTy).Contents (Elt F) → (⟨S640000x1, .f32⟩ : BufTy).Contents (Elt F) → (⟨S50000x1, .f32⟩ : BufTy).Contents (Elt F)),
    nullary main_cst_12 (constant S_ .f32 0x3F800000#32),
    unary main_cst_12 main_v64 (broadcastInDim S50000x1 ![] bcast_S_S50000x1 : (⟨S_, .f32⟩ : BufTy).Contents (Elt F) → (⟨S50000x1, .f32⟩ : BufTy).Contents (Elt F)),
    binary main_v63 main_v64 main_v65 (maximumf : (⟨S50000x1, .f32⟩ : BufTy).Contents (Elt F) → (⟨S50000x1, .f32⟩ : BufTy).Contents (Elt F) → (⟨S50000x1, .f32⟩ : BufTy).Contents (Elt F)),
    unary main_v65 main_v66 (broadcastInDim S50000x256 ![0, 1] bcast_S50000x1_S50000x256_0_1 : (⟨S50000x1, .f32⟩ : BufTy).Contents (Elt F) → (⟨S50000x256, .f32⟩ : BufTy).Contents (Elt F)),
    binary main_v59 main_v66 main_v67 (Host.divf : (⟨S50000x256, .f32⟩ : BufTy).Contents (Elt F) → (⟨S50000x256, .f32⟩ : BufTy).Contents (Elt F) → (⟨S50000x256, .f32⟩ : BufTy).Contents (Elt F)) ]

abbrev s4 : List (HloOp τ sig (Elt F)) :=
  [ binary main_v67 main_arg5 main_v68 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg6 main_v69 (broadcastInDim S1x256 ![1] bcast_S256_S1x256_1 : (⟨S256, .f32⟩ : BufTy).Contents (Elt F) → (⟨S1x256, .f32⟩ : BufTy).Contents (Elt F)),
    unary main_v69 main_v70 (broadcastInDim S50000x256 ![0, 1] bcast_S1x256_S50000x256_0_1 : (⟨S1x256, .f32⟩ : BufTy).Contents (Elt F) → (⟨S50000x256, .f32⟩ : BufTy).Contents (Elt F)),
    binary main_v68 main_v70 main_v71 (addf : (⟨S50000x256, .f32⟩ : BufTy).Contents (Elt F) → (⟨S50000x256, .f32⟩ : BufTy).Contents (Elt F) → (⟨S50000x256, .f32⟩ : BufTy).Contents (Elt F)),
    binary main_v49 main_arg7 main_v72 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v71 main_v72 main_v73 (addf : (⟨S50000x256, .f32⟩ : BufTy).Contents (Elt F) → (⟨S50000x256, .f32⟩ : BufTy).Contents (Elt F) → (⟨S50000x256, .f32⟩ : BufTy).Contents (Elt F)),
    binary main_v73 main_v73 main_v74 (mulf : (⟨S50000x256, .f32⟩ : BufTy).Contents (Elt F) → (⟨S50000x256, .f32⟩ : BufTy).Contents (Elt F) → (⟨S50000x256, .f32⟩ : BufTy).Contents (Elt F)),
    nullary main_cst_13 (constant S_ .f32 0x00000000#32),
    binary main_v74 main_cst_13 main_v75 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v75 main_v76 (broadcastInDim S50000x1 ![0] bcast_S50000_S50000x1_0 : (⟨S50000, .f32⟩ : BufTy).Contents (Elt F) → (⟨S50000x1, .f32⟩ : BufTy).Contents (Elt F)),
    unary main_v76 main_v77 (Host.sqrt : (⟨S50000x1, .f32⟩ : BufTy).Contents (Elt F) → (⟨S50000x1, .f32⟩ : BufTy).Contents (Elt F)),
    nullary main_cst_14 (constant S_ .f32 0x2B8CBCCC#32),
    unary main_cst_14 main_v78 (broadcastInDim S50000x1 ![] bcast_S_S50000x1 : (⟨S_, .f32⟩ : BufTy).Contents (Elt F) → (⟨S50000x1, .f32⟩ : BufTy).Contents (Elt F)),
    binary main_v77 main_v78 main_v79 (maximumf : (⟨S50000x1, .f32⟩ : BufTy).Contents (Elt F) → (⟨S50000x1, .f32⟩ : BufTy).Contents (Elt F) → (⟨S50000x1, .f32⟩ : BufTy).Contents (Elt F)),
    unary main_v79 main_v80 (broadcastInDim S50000x256 ![0, 1] bcast_S50000x1_S50000x256_0_1 : (⟨S50000x1, .f32⟩ : BufTy).Contents (Elt F) → (⟨S50000x256, .f32⟩ : BufTy).Contents (Elt F)),
    binary main_v73 main_v80 main_v81 (Host.divf : (⟨S50000x256, .f32⟩ : BufTy).Contents (Elt F) → (⟨S50000x256, .f32⟩ : BufTy).Contents (Elt F) → (⟨S50000x256, .f32⟩ : BufTy).Contents (Elt F)),
    binary main_v81 main_v81 main_v82 (mulf : (⟨S50000x256, .f32⟩ : BufTy).Contents (Elt F) → (⟨S50000x256, .f32⟩ : BufTy).Contents (Elt F) → (⟨S50000x256, .f32⟩ : BufTy).Contents (Elt F)),
    nullary main_cst_15 (constant S_ .f32 0x00000000#32),
    binary main_v82 main_cst_15 main_v83 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    unary main_v83 main_v84 (broadcastInDim S50000x1 ![0] bcast_S50000_S50000x1_0 : (⟨S50000, .f32⟩ : BufTy).Contents (Elt F) → (⟨S50000x1, .f32⟩ : BufTy).Contents (Elt F)),
    unary main_v84 main_v85 (Host.sqrt : (⟨S50000x1, .f32⟩ : BufTy).Contents (Elt F) → (⟨S50000x1, .f32⟩ : BufTy).Contents (Elt F)),
    nullary main_cst_16 (constant S_ .f32 0x2B8CBCCC#32),
    unary main_cst_16 main_v86 (broadcastInDim S50000x1 ![] bcast_S_S50000x1 : (⟨S_, .f32⟩ : BufTy).Contents (Elt F) → (⟨S50000x1, .f32⟩ : BufTy).Contents (Elt F)),
    binary main_v85 main_v86 main_v87 (maximumf : (⟨S50000x1, .f32⟩ : BufTy).Contents (Elt F) → (⟨S50000x1, .f32⟩ : BufTy).Contents (Elt F) → (⟨S50000x1, .f32⟩ : BufTy).Contents (Elt F)),
    unary main_v87 main_v88 (broadcastInDim S50000x256 ![0, 1] bcast_S50000x1_S50000x256_0_1 : (⟨S50000x1, .f32⟩ : BufTy).Contents (Elt F) → (⟨S50000x256, .f32⟩ : BufTy).Contents (Elt F)),
    binary main_v81 main_v88 main_v89 (Host.divf : (⟨S50000x256, .f32⟩ : BufTy).Contents (Elt F) → (⟨S50000x256, .f32⟩ : BufTy).Contents (Elt F) → (⟨S50000x256, .f32⟩ : BufTy).Contents (Elt F)) ]

/-- The whole line is the four stretches in a row. -/
theorem ops_eq : (ops : List (HloOp τ sig (Elt F))) = s1 ++ s2 ++ s3 ++ s4 := rfl

/-- The fold over the whole line is the four folds composed. -/
theorem after_ops (W : Valuation τ sig (Elt F)) : after ops W = after s4 (after s3 (after s2 (after s1 W))) := by
  rw [ops_eq, after_append, after_append, after_append]

/-! ## First stretch: the two index rows and the first aggregation, as stages of the two arguments read -/

/-- Every operation of the first stretch writes one of these buffers. -/
theorem s1_writes : (s1 : List (HloOp τ sig (Elt F))).Forall fun op =>
    op.writes ⊆ (([main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21] : List (Ref sig .tc)).map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer the first stretch does not write is carried across it. -/
theorem s1_keep {r : Ref sig .tc} (hr : r ∉ ([main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21] : List (Ref sig .tc))) (V : Valuation τ sig (Elt F)) :
    after s1 V (Proc.devRef .tc r) = V (Proc.devRef .tc r) :=
  after_of_writes_sub s1 V s1_writes hr

-- a long literal list
set_option maxHeartbeats 1000000 in
theorem s1_v1 (V : Valuation τ sig (Elt F)) :
    after s1 V (Proc.devRef .tc main_v1) = val_main_v1 (F := F) (V (Proc.devRef .tc main_arg1)) := by
  after_results
  rfl

-- a long literal list
set_option maxHeartbeats 1000000 in
theorem s1_v3 (V : Valuation τ sig (Elt F)) :
    after s1 V (Proc.devRef .tc main_v3) = val_main_v3 (F := F) (V (Proc.devRef .tc main_arg1)) := by
  after_results
  rfl

-- a long literal list
set_option maxHeartbeats 1000000 in
theorem s1_v21 (V : Valuation τ sig (Elt F)) :
    after s1 V (Proc.devRef .tc main_v21) = val_main_v21 (F := F) (V (Proc.devRef .tc main_arg0)) (V (Proc.devRef .tc main_arg1)) := by
  after_results
  rfl

/-! ## Second stretch: the hidden array from the first aggregation and the affine, normalising and rectifying rows -/

/-- Every operation of the second stretch writes one of these buffers. -/
theorem s2_writes : (s2 : List (HloOp τ sig (Elt F))).Forall fun op =>
    op.writes ⊆ (([main_v22, main_v23, main_v24, main_v25, main_v26, main_v27, main_v28, main_cst_4, main_v29, main_v30, main_v31, main_cst_5, main_v32, main_v33, main_v34, main_v35, main_v36, main_v37, main_v38, main_cst_6, main_v39, main_v40, main_v41, main_v42, main_v43, main_v44, main_v45, main_v46, main_v47, main_v48, main_call0_cst, main_call0_v0, main_v49] : List (Ref sig .tc)).map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer the second stretch does not write is carried across it. -/
theorem s2_keep {r : Ref sig .tc} (hr : r ∉ ([main_v22, main_v23, main_v24, main_v25, main_v26, main_v27, main_v28, main_cst_4, main_v29, main_v30, main_v31, main_cst_5, main_v32, main_v33, main_v34, main_v35, main_v36, main_v37, main_v38, main_cst_6, main_v39, main_v40, main_v41, main_v42, main_v43, main_v44, main_v45, main_v46, main_v47, main_v48, main_call0_cst, main_call0_v0, main_v49] : List (Ref sig .tc))) (V : Valuation τ sig (Elt F)) :
    after s2 V (Proc.devRef .tc r) = V (Proc.devRef .tc r) :=
  after_of_writes_sub s2 V s2_writes hr

-- a long literal list
set_option maxHeartbeats 2000000 in
theorem s2_v49 (V : Valuation τ sig (Elt F)) (x0 : (⟨S50000x128, .f32⟩ : BufTy).Contents (Elt F)) (x1 : (⟨S2x640000, .i32⟩ : BufTy).Contents (Elt F)) (x2 : (⟨S128x256, .f32⟩ : BufTy).Contents (Elt F)) (x3 : (⟨S256, .f32⟩ : BufTy).Contents (Elt F)) (x4 : (⟨S128x256, .f32⟩ : BufTy).Contents (Elt F)) (x8 : (⟨S256, .f32⟩ : BufTy).Contents (Elt F)) (x9 : (⟨S256, .f32⟩ : BufTy).Contents (Elt F)) (x10 : (⟨S256, .f32⟩ : BufTy).Contents (Elt F)) (x11 : (⟨S256, .f32⟩ : BufTy).Contents (Elt F))
    (h0 : V (Proc.devRef .tc main_arg0) = x0) (h2 : V (Proc.devRef .tc main_arg2) = x2) (h3 : V (Proc.devRef .tc main_arg3) = x3)
    (h4 : V (Proc.devRef .tc main_arg4) = x4) (h8 : V (Proc.devRef .tc main_arg8) = x8) (h9 : V (Proc.devRef .tc main_arg9) = x9)
    (h10 : V (Proc.devRef .tc main_arg10) = x10) (h11 : V (Proc.devRef .tc main_arg11) = x11)
    (h21 : V (Proc.devRef .tc main_v21) = val_main_v21 (F := F) x0 x1) :
    after s2 V (Proc.devRef .tc main_v49) = val_main_v49 (F := F) x0 x1 x2 x3 x4 x8 x9 x10 x11 := by
  subst h0 h2 h3 h4 h8 h9 h10 h11
  after_results
  rw [h21]
  rfl

/-! ## Third stretch: the second aggregation, of the hidden array's rows along the same two index rows -/

/-- Every operation of the third stretch writes one of these buffers. -/
theorem s3_writes : (s3 : List (HloOp τ sig (Elt F))).Forall fun op =>
    op.writes ⊆ (([main_c_7, main_v50, main_v51, main_c_8, main_v52, main_v53, main_v54, main_v55, main_v56, main_cst_9, main_v57, main_v58, main_v59, main_cst_10, main_v60, main_cst_11, main_v61, main_v62, main_v63, main_cst_12, main_v64, main_v65, main_v66, main_v67] : List (Ref sig .tc)).map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer the third stretch does not write is carried across it. -/
theorem s3_keep {r : Ref sig .tc} (hr : r ∉ ([main_c_7, main_v50, main_v51, main_c_8, main_v52, main_v53, main_v54, main_v55, main_v56, main_cst_9, main_v57, main_v58, main_v59, main_cst_10, main_v60, main_cst_11, main_v61, main_v62, main_v63, main_cst_12, main_v64, main_v65, main_v66, main_v67] : List (Ref sig .tc))) (V : Valuation τ sig (Elt F)) :
    after s3 V (Proc.devRef .tc r) = V (Proc.devRef .tc r) :=
  after_of_writes_sub s3 V s3_writes hr

-- a long literal list
set_option maxHeartbeats 2000000 in
theorem s3_v67 (V : Valuation τ sig (Elt F)) (x0 : (⟨S50000x128, .f32⟩ : BufTy).Contents (Elt F)) (x1 : (⟨S2x640000, .i32⟩ : BufTy).Contents (Elt F)) (x2 : (⟨S128x256, .f32⟩ : BufTy).Contents (Elt F)) (x3 : (⟨S256, .f32⟩ : BufTy).Contents (Elt F)) (x4 : (⟨S128x256, .f32⟩ : BufTy).Contents (Elt F)) (x8 : (⟨S256, .f32⟩ : BufTy).Contents (Elt F)) (x9 : (⟨S256, .f32⟩ : BufTy).Contents (Elt F)) (x10 : (⟨S256, .f32⟩ : BufTy).Contents (Elt F)) (x11 : (⟨S256, .f32⟩ : BufTy).Contents (Elt F))
    (h1 : V (Proc.devRef .tc main_v1) = val_main_v1 (F := F) x1) (h3' : V (Proc.devRef .tc main_v3) = val_main_v3 (F := F) x1)
    (h49 : V (Proc.devRef .tc main_v49) = val_main_v49 (F := F) x0 x1 x2 x3 x4 x8 x9 x10 x11) :
    after s3 V (Proc.devRef .tc main_v67) = val_main_v67 (F := F) x0 x1 x2 x3 x4 x8 x9 x10 x11 := by
  after_results
  rw [h1, h3', h49]
  rfl

/-! ## Fourth stretch: the second layer's affine map and its two normalisations -/

/-- Every operation of the fourth stretch writes one of these buffers. -/
theorem s4_writes : (s4 : List (HloOp τ sig (Elt F))).Forall fun op =>
    op.writes ⊆ (([main_v68, main_v69, main_v70, main_v71, main_v72, main_v73, main_v74, main_cst_13, main_v75, main_v76, main_v77, main_cst_14, main_v78, main_v79, main_v80, main_v81, main_v82, main_cst_15, main_v83, main_v84, main_v85, main_cst_16, main_v86, main_v87, main_v88, main_v89] : List (Ref sig .tc)).map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer the fourth stretch does not write is carried across it. -/
theorem s4_keep {r : Ref sig .tc} (hr : r ∉ ([main_v68, main_v69, main_v70, main_v71, main_v72, main_v73, main_v74, main_cst_13, main_v75, main_v76, main_v77, main_cst_14, main_v78, main_v79, main_v80, main_v81, main_v82, main_cst_15, main_v83, main_v84, main_v85, main_cst_16, main_v86, main_v87, main_v88, main_v89] : List (Ref sig .tc))) (V : Valuation τ sig (Elt F)) :
    after s4 V (Proc.devRef .tc r) = V (Proc.devRef .tc r) :=
  after_of_writes_sub s4 V s4_writes hr

-- a long literal list
set_option maxHeartbeats 4000000 in
theorem s4_v89 (V : Valuation τ sig (Elt F)) (x0 : (⟨S50000x128, .f32⟩ : BufTy).Contents (Elt F)) (x1 : (⟨S2x640000, .i32⟩ : BufTy).Contents (Elt F)) (x2 : (⟨S128x256, .f32⟩ : BufTy).Contents (Elt F)) (x3 : (⟨S256, .f32⟩ : BufTy).Contents (Elt F)) (x4 : (⟨S128x256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 : (⟨S256, .f32⟩ : BufTy).Contents (Elt F)) (x9 : (⟨S256, .f32⟩ : BufTy).Contents (Elt F)) (x10 : (⟨S256, .f32⟩ : BufTy).Contents (Elt F)) (x11 : (⟨S256, .f32⟩ : BufTy).Contents (Elt F))
    (h5 : V (Proc.devRef .tc main_arg5) = x5) (h6 : V (Proc.devRef .tc main_arg6) = x6) (h7 : V (Proc.devRef .tc main_arg7) = x7)
    (h49 : V (Proc.devRef .tc main_v49) = val_main_v49 (F := F) x0 x1 x2 x3 x4 x8 x9 x10 x11)
    (h67 : V (Proc.devRef .tc main_v67) = val_main_v67 (F := F) x0 x1 x2 x3 x4 x8 x9 x10 x11) :
    after s4 V (Proc.devRef .tc main_v89) = val_main_v89 (F := F) x0 x1 x2 x3 x4 x5 x6 x7 x8 x9 x10 x11 := by
  subst h5 h6 h7
  after_results
  rw [h49, h67]
  rfl

/-! ## The stretches chained -/

section Chain

variable (W : Valuation τ sig (Elt F))

/-- A buffer none of the first two stretches writes, after both. -/
theorem keep2 {r : Ref sig .tc} (h1 : r ∉ ([main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21] : List (Ref sig .tc))) (h2 : r ∉ ([main_v22, main_v23, main_v24, main_v25, main_v26, main_v27, main_v28, main_cst_4, main_v29, main_v30, main_v31, main_cst_5, main_v32, main_v33, main_v34, main_v35, main_v36, main_v37, main_v38, main_cst_6, main_v39, main_v40, main_v41, main_v42, main_v43, main_v44, main_v45, main_v46, main_v47, main_v48, main_call0_cst, main_call0_v0, main_v49] : List (Ref sig .tc))) :
    after s2 (after s1 W) (Proc.devRef .tc r) = W (Proc.devRef .tc r) :=
  (s2_keep h2 _).trans (s1_keep h1 W)

/-- A buffer none of the first three stretches writes, after the three. -/
theorem keep3 {r : Ref sig .tc} (h1 : r ∉ ([main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21] : List (Ref sig .tc))) (h2 : r ∉ ([main_v22, main_v23, main_v24, main_v25, main_v26, main_v27, main_v28, main_cst_4, main_v29, main_v30, main_v31, main_cst_5, main_v32, main_v33, main_v34, main_v35, main_v36, main_v37, main_v38, main_cst_6, main_v39, main_v40, main_v41, main_v42, main_v43, main_v44, main_v45, main_v46, main_v47, main_v48, main_call0_cst, main_call0_v0, main_v49] : List (Ref sig .tc)))
    (h3 : r ∉ ([main_c_7, main_v50, main_v51, main_c_8, main_v52, main_v53, main_v54, main_v55, main_v56, main_cst_9, main_v57, main_v58, main_v59, main_cst_10, main_v60, main_cst_11, main_v61, main_v62, main_v63, main_cst_12, main_v64, main_v65, main_v66, main_v67] : List (Ref sig .tc))) :
    after s3 (after s2 (after s1 W)) (Proc.devRef .tc r) = W (Proc.devRef .tc r) :=
  (s3_keep h3 _).trans (keep2 W h1 h2)

/-- A buffer no operation of the line writes keeps its contents. -/
theorem ops_keep {r : Ref sig .tc} (h1 : r ∉ ([main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21] : List (Ref sig .tc))) (h2 : r ∉ ([main_v22, main_v23, main_v24, main_v25, main_v26, main_v27, main_v28, main_cst_4, main_v29, main_v30, main_v31, main_cst_5, main_v32, main_v33, main_v34, main_v35, main_v36, main_v37, main_v38, main_cst_6, main_v39, main_v40, main_v41, main_v42, main_v43, main_v44, main_v45, main_v46, main_v47, main_v48, main_call0_cst, main_call0_v0, main_v49] : List (Ref sig .tc)))
    (h3 : r ∉ ([main_c_7, main_v50, main_v51, main_c_8, main_v52, main_v53, main_v54, main_v55, main_v56, main_cst_9, main_v57, main_v58, main_v59, main_cst_10, main_v60, main_cst_11, main_v61, main_v62, main_v63, main_cst_12, main_v64, main_v65, main_v66, main_v67] : List (Ref sig .tc))) (h4 : r ∉ ([main_v68, main_v69, main_v70, main_v71, main_v72, main_v73, main_v74, main_cst_13, main_v75, main_v76, main_v77, main_cst_14, main_v78, main_v79, main_v80, main_v81, main_v82, main_cst_15, main_v83, main_v84, main_v85, main_cst_16, main_v86, main_v87, main_v88, main_v89] : List (Ref sig .tc))) :
    after ops W (Proc.devRef .tc r) = W (Proc.devRef .tc r) := by
  rw [after_ops]
  exact (s4_keep h4 _).trans (keep3 W h1 h2 h3)

/-- The hidden array after the first two stretches. -/
theorem v49_after2 :
    after s2 (after s1 W) (Proc.devRef .tc main_v49)
      = val_main_v49 (F := F) (W (Proc.devRef .tc main_arg0)) (W (Proc.devRef .tc main_arg1)) (W (Proc.devRef .tc main_arg2)) (W (Proc.devRef .tc main_arg3)) (W (Proc.devRef .tc main_arg4)) (W (Proc.devRef .tc main_arg8)) (W (Proc.devRef .tc main_arg9)) (W (Proc.devRef .tc main_arg10)) (W (Proc.devRef .tc main_arg11)) :=
  s2_v49 (after s1 W) _ _ _ _ _ _ _ _ _ (s1_keep (by decide) W) (s1_keep (by decide) W) (s1_keep (by decide) W) (s1_keep (by decide) W) (s1_keep (by decide) W) (s1_keep (by decide) W) (s1_keep (by decide) W) (s1_keep (by decide) W) (s1_v21 W)

/-- The second aggregation after the first three stretches. -/
theorem v67_after3 :
    after s3 (after s2 (after s1 W)) (Proc.devRef .tc main_v67)
      = val_main_v67 (F := F) (W (Proc.devRef .tc main_arg0)) (W (Proc.devRef .tc main_arg1)) (W (Proc.devRef .tc main_arg2)) (W (Proc.devRef .tc main_arg3)) (W (Proc.devRef .tc main_arg4)) (W (Proc.devRef .tc main_arg8)) (W (Proc.devRef .tc main_arg9)) (W (Proc.devRef .tc main_arg10)) (W (Proc.devRef .tc main_arg11)) :=
  s3_v67 (after s2 (after s1 W)) _ _ _ _ _ _ _ _ _ ((s2_keep (by decide) _).trans (s1_v1 W)) ((s2_keep (by decide) _).trans (s1_v3 W))
    (v49_after2 W)

/-- The result after the whole line. -/
theorem ops_v89 :
    after ops W (Proc.devRef .tc main_v89)
      = val_main_v89 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [after_ops]
  exact s4_v89 (after s3 (after s2 (after s1 W))) _ _ _ _ _ _ _ _ _ _ _ _
    (keep3 W (by decide) (by decide) (by decide)) (keep3 W (by decide) (by decide) (by decide)) (keep3 W (by decide) (by decide) (by decide))
    ((s3_keep (by decide) _).trans (v49_after2 W)) (v67_after3 W)

end Chain

/-- No operation of the line leaves a result undetermined. -/
theorem ops_fresh : (ops : List (HloOp τ sig (Elt F))).Forall fun op => op.fresh = ∅ := by
  simp only [List.Forall]; repeat' constructor

theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = val_main_v89 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono
    (fun r h c => ⟨(h c main_v89).trans (ops_v89 (launchContents m c)),
      (h c main_arg0).trans (ops_keep (launchContents m c) (by decide) (by decide) (by decide) (by decide)),
      (h c main_arg1).trans (ops_keep (launchContents m c) (by decide) (by decide) (by decide) (by decide)),
      (h c main_arg2).trans (ops_keep (launchContents m c) (by decide) (by decide) (by decide) (by decide)),
      (h c main_arg3).trans (ops_keep (launchContents m c) (by decide) (by decide) (by decide) (by decide)),
      (h c main_arg4).trans (ops_keep (launchContents m c) (by decide) (by decide) (by decide) (by decide)),
      (h c main_arg5).trans (ops_keep (launchContents m c) (by decide) (by decide) (by decide) (by decide)),
      (h c main_arg6).trans (ops_keep (launchContents m c) (by decide) (by decide) (by decide) (by decide)),
      (h c main_arg7).trans (ops_keep (launchContents m c) (by decide) (by decide) (by decide) (by decide)),
      (h c main_arg8).trans (ops_keep (launchContents m c) (by decide) (by decide) (by decide) (by decide)),
      (h c main_arg9).trans (ops_keep (launchContents m c) (by decide) (by decide) (by decide) (by decide)),
      (h c main_arg10).trans (ops_keep (launchContents m c) (by decide) (by decide) (by decide) (by decide)),
      (h c main_arg11).trans (ops_keep (launchContents m c) (by decide) (by decide) (by decide) (by decide))⟩)
    (run_seq scopedRefs_eq scopedSems_eq defs main (fun _ => ops) main_eq (fun _ => ops_sub) m ρ
      (fun _ => List.forall_iff_forall_mem.mp ops_fresh))

end Cert.RefRun

end
-- ==== Proof.RowSpec.lean ====
/-
  One node's row of the two-layer neighbourhood-mean network, as plain arithmetic on the extended reals.

  For a node with aggregated neighbour features `a` and own features `x` (both of length K), a layer first forms the
  affine row  pre j = (∑ k, a k * Wl k j + bl j) + ∑ k, x k * Wr k j,  then scales it to unit Euclidean length, the
  length floored at a tiny positive word:  unit v j = v j / max (√(∑ j', v j' * v j')) tiny.
  Layer 0 then applies a per-column affine normalisation and the rectifier:
    ((u j - mu j) * s j + b j) ⊔ 0,
  where the column scale `s j` is written `g j * rsqrt (var j + eps)` by one program and `g j / √(var j + eps)` by the
  other. Layer 1 scales to unit length twice.

  The two spellings of the column scale are the same extended real as soon as `var j + eps` is a positive real:
  there `rsqrt t = (√t)⁻¹`, `√t` is a nonzero real, and a quotient by a nonzero real is the product with its
  inverse. With `var j` a non-negative real and `eps` the positive real its word denotes, that is the case.
-/
import Idealize.ShloMosaic.PureOps.Ideal.Laws
import Idealize.ShloMosaic.Lib.ValueIdx

noncomputable section

open scoped BigOperators

namespace Cert.RowSpec

open Idealize.ShloMosaic

/-- The word the unit-length floor is spelt with (about 1e-12). -/
abbrev tiny : EReal := Ideal.ofBits .f32 0x2B8CBCCC#32
/-- The word added to the variance (about 1e-5). -/
abbrev eps : EReal := Ideal.ofBits .f32 0x3727C5AC#32
/-- The zero word. -/
abbrev zero : EReal := Ideal.ofBits .f32 0x00000000#32

/-- The variance offset's word denotes a positive real. -/
theorem eps_pos : ∃ e : ℝ, 0 < e ∧ eps = (e : EReal) := by
  refine ⟨(10995116 : ℝ) * (2 : ℝ) ^ (-40 : ℤ), by positivity, ?_⟩
  simp [eps, Ideal.ofBits, Ideal.ieee, -EReal.coe_mul]

/-- The zero word denotes zero. -/
theorem zero_eq : zero = 0 := by
  simp [zero, Ideal.ofBits, Ideal.ieee]

/-! ## The column scale, two spellings -/

/-- At a positive real `t`, `g * rsqrt t` and `g / √t` are the same extended real. -/
theorem scale_eq (g : EReal) {t : ℝ} (ht : 0 < t) :
    g * Ideal.rsqrt (t : EReal) = Ideal.div g (Ideal.sqrt (t : EReal)) := by
  have hs : Real.sqrt t ≠ 0 := (Real.sqrt_pos.mpr ht).ne'
  rw [Ideal.rsqrt_coe, if_neg (not_lt.mpr ht.le), if_neg ht.ne', Ideal.sqrt_coe, if_neg (not_lt.mpr ht.le),
    Ideal.div, if_neg (by exact_mod_cast hs), EReal.coe_inv]

/-- The same with the variance a non-negative real and the offset its positive word. -/
theorem scale_eq_var (g v : EReal) (hv : ∃ r : ℝ, 0 ≤ r ∧ v = (r : EReal)) :
    g * Ideal.rsqrt (v + eps) = Ideal.div g (Ideal.sqrt (v + eps)) := by
  obtain ⟨r, hr, rfl⟩ := hv
  obtain ⟨e, he, hee⟩ := eps_pos
  rw [hee, ← EReal.coe_add]
  exact scale_eq g (by linarith)

/-! ## A node's row -/

variable {K : ℕ}

/-- The affine row: neighbours' mean against `Wl`, plus the bias, plus the node's own row against `Wr`. -/
def pre (a x : Fin K → EReal) (Wl Wr : Fin K → Fin 256 → EReal) (bl : Fin 256 → EReal) (j : Fin 256) : EReal :=
  ((∑ k : Fin K, a k * Wl k j) + bl j) + ∑ k : Fin K, x k * Wr k j

/-- The floored Euclidean length of a row. -/
def len (v : Fin 256 → EReal) : EReal := max (Ideal.sqrt (∑ j : Fin 256, v j * v j)) tiny

/-- A row scaled to unit length. -/
def unit (v : Fin 256 → EReal) (j : Fin 256) : EReal := Ideal.div (v j) (len v)

/-- The per-column affine normalisation and rectifier, the scale spelt with the reciprocal square root. -/
def normK (g b mu var : Fin 256 → EReal) (u : Fin 256 → EReal) (j : Fin 256) : EReal :=
  max ((u j - mu j) * (g j * Ideal.rsqrt (var j + eps)) + b j) zero

/-- The same, the scale spelt as a quotient by the square root. -/
def normR (g b mu var : Fin 256 → EReal) (u : Fin 256 → EReal) (j : Fin 256) : EReal :=
  max ((u j - mu j) * Ideal.div (g j) (Ideal.sqrt (var j + eps)) + b j) zero

/-- Layer 0's row, the scale spelt with the reciprocal square root. -/
def row0K (a x : Fin K → EReal) (Wl Wr : Fin K → Fin 256 → EReal) (bl g b mu var : Fin 256 → EReal) (j : Fin 256) : EReal :=
  normK g b mu var (unit (pre a x Wl Wr bl)) j

/-- Layer 0's row, the scale spelt as a quotient. -/
def row0R (a x : Fin K → EReal) (Wl Wr : Fin K → Fin 256 → EReal) (bl g b mu var : Fin 256 → EReal) (j : Fin 256) : EReal :=
  normR g b mu var (unit (pre a x Wl Wr bl)) j

/-- Layer 1's row: unit length, twice. -/
def row1 (a h : Fin K → EReal) (Wl Wr : Fin K → Fin 256 → EReal) (bl : Fin 256 → EReal) (j : Fin 256) : EReal :=
  unit (unit (pre a h Wl Wr bl)) j

/-- With every variance a non-negative real the two spellings of layer 0's row agree. -/
theorem row0_eq (a x : Fin K → EReal) (Wl Wr : Fin K → Fin 256 → EReal) (bl g b mu var : Fin 256 → EReal)
    (hvar : ∀ j, ∃ r : ℝ, 0 ≤ r ∧ var j = (r : EReal)) :
    row0K a x Wl Wr bl g b mu var = row0R a x Wl Wr bl g b mu var := by
  funext j
  unfold row0K row0R normK normR
  rw [scale_eq_var (g j) (var j) (hvar j)]

end Cert.RowSpec

end
-- ==== Proof.ArrSpec.lean ====
/-
  The two layers over whole arrays of node rows, entry by entry: entry (r, j) of a layer's result is the row function
  of `RowSpec` at column j, fed row r of the aggregated features, row r of the node features, and the parameters.
  A layer is therefore ROW-LOCAL: a block of consecutive rows of the result is the same layer applied to the same
  block of rows of its two row-wise operands. The definitions are stated at any number M of rows, so one definition
  serves a block of 2000 rows and the whole array of 50000.

  The parameters come in two layouts: as [1, 256] rows (how a block of the tiled computation holds them) and as [256]
  vectors (how the whole-array computation holds them); a vector reshaped to a row gives the same entries.
-/
import proofs.«104896_j3023656976611_1_alg».proof.Proof.RowSpec

noncomputable section

namespace Cert.ArrSpec

open Idealize.ShloMosaic Idealize.ShloMosaic.ValueIdx Cert.RowSpec

/-- An [M, N] array of extended reals. -/
abbrev Mat (M N : ℕ) : Type := (⟨2, ![M, N]⟩ : Shape).Idx → EReal
/-- An [N] vector of extended reals. -/
abbrev Vc (N : ℕ) : Type := (⟨1, ![N]⟩ : Shape).Idx → EReal

variable {M K N : ℕ}

/-- Row r of an array. -/
def rowOf (X : Mat M N) (r : Fin M) : Fin N → EReal := fun k => X (ix2 r k)
/-- An array's entries by coordinates. -/
def ent (W : Mat K N) : Fin K → Fin N → EReal := fun k j => W (ix2 k j)
/-- The one row of a [1, N] array. -/
def rowv (b : Mat 1 N) : Fin N → EReal := fun j => b (ix2 0 j)
/-- A vector's entries. -/
def vecv (b : Vc N) : Fin N → EReal := fun j => b (ix1 j)

/-- Layer 0 with the parameters as [1, 256] rows and the column scale spelt with the reciprocal square root. -/
def layer0K (A X : Mat M K) (Wl Wr : Mat K 256) (bl g b mu var : Mat 1 256) : Mat M 256 :=
  fun i => row0K (rowOf A (i 0)) (rowOf X (i 0)) (ent Wl) (ent Wr) (rowv bl) (rowv g) (rowv b) (rowv mu) (rowv var) (i 1)

/-- Layer 0 with the parameters as [256] vectors and the column scale spelt as a quotient by the square root. -/
def layer0R (A X : Mat M K) (Wl Wr : Mat K 256) (bl g b mu var : Vc 256) : Mat M 256 :=
  fun i => row0R (rowOf A (i 0)) (rowOf X (i 0)) (ent Wl) (ent Wr) (vecv bl) (vecv g) (vecv b) (vecv mu) (vecv var) (i 1)

/-- Layer 1 with the bias as a [1, 256] row. -/
def layer1K (A H : Mat M K) (Wl Wr : Mat K 256) (bl : Mat 1 256) : Mat M 256 :=
  fun i => row1 (rowOf A (i 0)) (rowOf H (i 0)) (ent Wl) (ent Wr) (rowv bl) (i 1)

/-- Layer 1 with the bias as a [256] vector. -/
def layer1R (A H : Mat M K) (Wl Wr : Mat K 256) (bl : Vc 256) : Mat M 256 :=
  fun i => row1 (rowOf A (i 0)) (rowOf H (i 0)) (ent Wl) (ent Wr) (vecv bl) (i 1)

/-- Layer 0 in the two layouts and spellings is one function once each row holds its vector's entries and every
    variance is a non-negative real. -/
theorem layer0_eq (A X : Mat M K) (Wl Wr : Mat K 256) (bl g b mu var : Mat 1 256) (bl' g' b' mu' var' : Vc 256)
    (hbl : rowv bl = vecv bl') (hg : rowv g = vecv g') (hb : rowv b = vecv b') (hmu : rowv mu = vecv mu')
    (hvar : rowv var = vecv var') (hnn : ∀ j : Fin 256, ∃ r : ℝ, 0 ≤ r ∧ var' (ix1 j) = (r : EReal)) :
    layer0K A X Wl Wr bl g b mu var = layer0R A X Wl Wr bl' g' b' mu' var' := by
  funext i
  unfold layer0K layer0R
  rw [hbl, hg, hb, hmu, hvar]
  exact congrFun (row0_eq _ _ _ _ _ _ _ _ (vecv var') hnn) (i 1)

/-- Layer 1 in the two layouts is one function once the row holds the vector's entries. -/
theorem layer1_eq (A H : Mat M K) (Wl Wr : Mat K 256) (bl : Mat 1 256) (bl' : Vc 256) (hbl : rowv bl = vecv bl') :
    layer1K A H Wl Wr bl = layer1R A H Wl Wr bl' := by
  funext i
  unfold layer1K layer1R
  rw [hbl]

end Cert.ArrSpec

end
-- ==== Proof.LibDense.lean ====
/-
  AN AFFINE LAYER READ AT AN ENTRY, at the extended reals. For a row-major product of an [M, K] matrix with a [K, N]
  matrix (one contracted axis, no batch axis) the contraction index is its one coordinate `k : Fin K`, and the entry
  (r, c) of the product is `∑ k, X (r, k) * W (k, c)`, whether the product is a block product into a zero accumulator or
  the host's dot product. An affine layer adds the bias row's entry of column c; the leaky rectifier keeps a non-negative
  entry and scales a negative one by the f32 word of 0.2.

  * `plain_dot_apply`, `plain_matmul_apply`: both products as that sum over `Fin K`;
  * `affine`, `leaky`, `denseLeaky`: the layer entry by entry; `affine_congr`: it only looks at row r, column c and
    the bias entry of column c, so a block of rows of X gives the same entries as the whole X at the block's rows;
  * `pay_affine`, `leaky_vec`: a block product plus a bias row repeated down the block, then the rectifier, as a vector
    unit writes them; `host_affine`, `leaky_host`: the same as host operations write them (the bias vector made a row
    and then repeated; the rectifier's constants as rank-0 splats).

  Every statement holds at any M, K, N (N = 1 included: a column of extent one has only the index 0).
-/
import Idealize.ShloMosaic.PureOps.Ideal.Laws
import Idealize.ShloMosaic.Lib.ValueIdx
import Idealize.ShloMosaic.Lib.Pipeline.Value

noncomputable section
namespace Cert.Lib.Dense
open Idealize.ShloMosaic
open Idealize.ShloMosaic.ValueIdx

abbrev ce (M K N : Nat) : (DotDims.plain M K N).contr.Idx ≃ Fin K := contrEquiv1 (DotDims.plain M K N) K rfl rfl

theorem plain_lhsIdx (M K N : Nat) (j : (⟨2, ![M, N]⟩ : Shape).Idx) (k : Fin K) :
    (DotDims.plain M K N).lhsIdx j ((ce M K N).symm k) = ix2 (n0 := M) (n1 := K) (j 0) k := by
  funext a; apply Fin.ext
  match a with
  | ⟨0, _⟩ => rfl
  | ⟨1, _⟩ =>
    exact (DotDims.lhsIdx_val_of_single (DotDims.plain M K N) (cl := 1) rfl j _).trans (contrEquiv1_symm_val _ K rfl rfl k)

theorem plain_rhsIdx (M K N : Nat) (j : (⟨2, ![M, N]⟩ : Shape).Idx) (k : Fin K) :
    (DotDims.plain M K N).rhsIdx j ((ce M K N).symm k) = ix2 (n0 := K) (n1 := N) k (j 1) := by
  funext a; apply Fin.ext
  match a with
  | ⟨0, _⟩ =>
    exact (DotDims.rhsIdx_val_of_single (DotDims.plain M K N) (cr := 0) rfl j _).trans (contrEquiv1_symm_val _ K rfl rfl k)
  | ⟨1, _⟩ => rfl

theorem plain_dot_apply (M K N : Nat) (prec : Option ContractPrecision) (sched : HostSchedule)
    (X : FVec Ideal ⟨2, ![M, K]⟩ .f32) (W : FVec Ideal ⟨2, ![K, N]⟩ .f32) (j : (⟨2, ![M, N]⟩ : Shape).Idx) :
    FloatOps.dotGeneral (DotDims.plain M K N) prec sched X W j = ∑ k : Fin K, X (ix2 (j 0) k) * W (ix2 k (j 1)) := by
  rw [Ideal.dotGeneral_apply, ← Equiv.sum_comp (ce M K N).symm]
  exact Finset.sum_congr rfl fun k _ => by rw [plain_lhsIdx, plain_rhsIdx]

theorem plain_matmul_apply (M K N : Nat) (prec : Option ContractPrecision)
    (X : FVec Ideal ⟨2, ![M, K]⟩ .f32) (W : FVec Ideal ⟨2, ![K, N]⟩ .f32) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- One entry of an affine layer: row `j 0` of `X` against column `j 1` of `W`, plus the bias row's entry of that column. -/
def affine {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => (∑ k : Fin K, X (ix2 (j 0) k) * W (ix2 k (j 1))) + B (ix2 0 (j 1))

/-- The leaky rectifier with slope the f32 word of 0.2, as both programs spell it: `y` where `y ≥ 0`, else the slope times `y`. -/
def leaky (y : EReal) : EReal :=
  Scalar.select (FloatOps.cmpf (F := Ideal) (φ := .f32) .oge y (Scalar.ofBits .f32 0x00000000#32)) y
    (FloatOps.mulf (F := Ideal) (φ := .f32) (Scalar.ofBits .f32 0x3E4CCCCD#32) y)

def denseLeaky {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := fun j => leaky (affine X W B j)

theorem affine_congr {Mb M K N : Nat} (xb : (⟨2, ![Mb, K]⟩ : Shape).Idx → EReal) (X : (⟨2, ![M, K]⟩ : Shape).Idx → EReal)
    (wb W : (⟨2, ![K, N]⟩ : Shape).Idx → EReal) (bb B : (⟨2, ![1, N]⟩ : Shape).Idx → EReal)
    (y : (⟨2, ![Mb, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1)))
    (hb : bb (ix2 0 (y 1)) = B (ix2 0 (i 1))) : affine xb wb bb y = affine X W B i := by
  unfold affine
  rw [hb]
  exact congrArg (· + _) (Finset.sum_congr rfl fun k _ => by rw [hx k, hw k])

/-- The kernel body's value at a block index: the block product into a zero accumulator plus the broadcast bias row. -/
theorem pay_affine {M K N : Nat} (x : FVec Ideal ⟨2, ![M, K]⟩ .f32) (w : FVec Ideal ⟨2, ![K, N]⟩ .f32) (b : FVec Ideal ⟨2, ![1, N]⟩ .f32)
    (sx : (⟨2, ![M, K]⟩ : Shape).ShapeCasts ⟨2, ![M, K]⟩) (sb : (⟨2, ![1, N]⟩ : Shape).ShapeCasts ⟨2, ![1, N]⟩)
    (bt : (⟨2, ![1, N]⟩ : Shape).Broadcasts ⟨2, ![M, N]⟩) (y : (⟨2, ![M, N]⟩ : Shape).Idx) :
    addf (matmul (DotDims.plain M K N) none (shapeCast ⟨2, ![M, K]⟩ x sx) w (constant ⟨2, ![M, N]⟩ .f32 0x00000000#32))
        (broadcastTo ⟨2, ![M, N]⟩ (shapeCast ⟨2, ![1, N]⟩ b sb) bt) y = affine x w b y := by
  rw [shapeCast_self, shapeCast_self]
  show FloatOps.matmul (DotDims.plain M K N) none x w (constant _ .f32 0x00000000#32) y + broadcastTo ⟨2, ![M, N]⟩ b bt y = _
  rw [plain_matmul_apply, broadcastTo_apply b bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The kernel's rectifier read at an index. -/
theorem leaky_vec {S : Shape} (Y : FVec Ideal S .f32) (y : S.Idx) :
    select (cmpf .oge Y (broadcast S (Scalar.ofBits .f32 0x00000000#32))) Y (mulf (broadcast S (Scalar.ofBits .f32 0x3E4CCCCD#32)) Y) y = leaky (Y y) := rfl

/-- A splat of a rank-0 constant reads as the constant's value everywhere. -/
theorem splat0_apply {S : Shape} (w : BitVec 32) (e : (⟨0, ![]⟩ : Shape).BroadcastsInDim S (![] : Fin 0 → Fin S.rank)) (j : S.Idx) :
    broadcastInDim S ![] e (constant (F := Ideal) ⟨0, ![]⟩ .f32 w) j = Scalar.ofBits .f32 w := by
  rw [broadcastInDim_apply _ e _ j (fun a => a.elim0) (fun a => a.elim0)]
  rfl

/-- The host's rectifier read at an index. -/
theorem leaky_host {S : Shape} (Y : FVec Ideal S .f32) (e e' : (⟨0, ![]⟩ : Shape).BroadcastsInDim S (![] : Fin 0 → Fin S.rank)) (j : S.Idx) :
    select (cmpf .oge Y (broadcastInDim S ![] e (constant ⟨0, ![]⟩ .f32 0x00000000#32))) Y
      (mulf (broadcastInDim S ![] e' (constant ⟨0, ![]⟩ .f32 0x3E4CCCCD#32)) Y) j = leaky (Y j) := by
  show Scalar.select (FloatOps.cmpf .oge (Y j) (broadcastInDim S ![] e (constant (F := Ideal) ⟨0, ![]⟩ .f32 0x00000000#32) j)) (Y j)
      (FloatOps.mulf (broadcastInDim S ![] e' (constant (F := Ideal) ⟨0, ![]⟩ .f32 0x3E4CCCCD#32) j) (Y j)) = _
  rw [splat0_apply, splat0_apply]
  rfl

/-- The host's affine layer at an index: the dot product plus the bias vector, first made a row [1, N] and then
    repeated down the rows, is the affine layer over the bias reshaped to a row. -/
theorem host_affine {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (sc : (⟨1, ![N]⟩ : Shape).ShapeCasts ⟨2, ![1, N]⟩) (j : (⟨2, ![M, N]⟩ : Shape).Idx) :
    addf (Host.dotGeneral (DotDims.plain M K N) none X W)
        (broadcastInDim ⟨2, ![M, N]⟩ ![0, 1] e2 (broadcastInDim ⟨2, ![1, N]⟩ ![1] e1 b)) j
      = affine X W (shapeCast ⟨2, ![1, N]⟩ b sc) j := by
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1)),
    shapeCast_addUnit_apply ![N] b sc (ix2 0 (j 1))]
  · refine congrArg b (funext fun a => ?_)
    match a with
    | ⟨0, _⟩ => rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- A bias vector as the one row of a [1, N] matrix. -/
def biasRow {N : Nat} (b : (⟨1, ![N]⟩ : Shape).Idx → EReal) : (⟨2, ![1, N]⟩ : Shape).Idx → EReal := fun i => b (ix1 (i 1))

/-- Reshaping a vector [N] to [1, N] gives that row. -/
theorem shapeCast_row {N : Nat} (b : FVec Ideal ⟨1, ![N]⟩ .f32) (sc : (⟨1, ![N]⟩ : Shape).ShapeCasts ⟨2, ![1, N]⟩) :
    shapeCast ⟨2, ![1, N]⟩ b sc = biasRow b := by
  funext i
  rw [shapeCast_addUnit_apply ![N] b sc i]
  refine congrArg b (funext fun a => ?_)
  match a with
  | ⟨0, _⟩ => rfl

/-- The host's affine layer, whole: its entries are `affine` over the bias row. -/
theorem host_affine_row {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    addf (Host.dotGeneral (DotDims.plain M K N) none X W)
        (broadcastInDim ⟨2, ![M, N]⟩ ![0, 1] e2 (broadcastInDim ⟨2, ![1, N]⟩ ![1] e1 b)) = affine X W (biasRow b) := by
  funext j
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The host's rectified affine layer, whole, is `denseLeaky` over the bias row. -/
theorem host_denseLeaky {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e e' : (⟨0, ![]⟩ : Shape).BroadcastsInDim ⟨2, ![M, N]⟩ (![] : Fin 0 → Fin 2)) :
    select (cmpf .oge (addf (Host.dotGeneral (DotDims.plain M K N) none X W)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32)))
      (addf (Host.dotGeneral (DotDims.plain M K N) none X W)
          (broadcastInDim ⟨2, ![M, N]⟩ ![0, 1] e2 (broadcastInDim ⟨2, ![1, N]⟩ ![1] e1 b)))
      (mulf (broadcastInDim ⟨2, ![M, N]⟩ ![] e' (constant ⟨0, ![]⟩ .f32 0x3E4CCCCD#32))
        (addf (Host.dotGeneral (DotDims.plain M K N) none X W)
          (broadcastInDim ⟨2, ![M, N]⟩ ![0, 1] e2 (broadcastInDim ⟨2, ![1, N]⟩ ![1] e1 b))))
      = denseLeaky X W (biasRow b) := by
  rw [host_affine_row]
  funext j
  exact leaky_host _ e e' j

/-- An affine layer with no rectifier, named like its rectified sibling. -/
def dense {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := affine X W B

end Cert.Lib.Dense
-- ==== Proof.LibKeepdims.lean ====
/-
  Layout and reduction forms that a `keepdims=True` reduction meets, read at an index written by coordinates.

  A sum kept as a column — `[a]` viewed as `[a, 1]` — and that column, or a single `[1, 1]` cell, spread
  back over an `[a, b]` block read one entry of the smaller array; and a host sum over the last two axes of a
  rank-4 array is, at each index of the two axes kept, the double sum over the two coordinates dropped (every
  index that drops to `(p, q)` is `(p, q, l, k)` for exactly one pair `(l, k)`).
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-! ## A column made of a vector, and spread over a block -/

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A single cell `[1, 1]` broadcast to `[a, b]` reads that cell at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-! ## A host sum over the last two of four axes -/

/-- The host's float sum over axes 2 and 3 of an `[a, b, c, d]` array, at `(p, q)`: the initial value plus the
    sum over `l` and `k` of the operand at `(p, q, l, k)`. The indices that drop to `(p, q)` correspond one to
    one to the pairs `(l, k)` of their last two coordinates. -/
theorem hostReduceAdd_lastTwo {a b c d : ℕ}
    (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ l : Fin c, ∑ k : Fin d, x (ix4 p q l k) := by
  unfold Ideal.hostReduceAdd
  refine congrArg (init + ·) ?_
  rw [← Finset.sum_product' (Finset.univ : Finset (Fin c)) (Finset.univ : Finset (Fin d)) (fun l k => x (ix4 p q l k))]
  -- the axes kept are 0 and 1, whatever the extents: a dropped index has the source's first two coordinates
  have d0 : ∀ i : (⟨4, ![a, b, c, d]⟩ : Shape).Idx, (h.drop i 0 : ℕ) = i 0 := fun _ => rfl
  have d1 : ∀ i : (⟨4, ![a, b, c, d]⟩ : Shape).Idx, (h.drop i 1 : ℕ) = i 1 := fun _ => rfl
  refine Finset.sum_nbij' (fun i => (i 2, i 3)) (fun lk => ix4 p q lk.1 lk.2) ?_ ?_ ?_ ?_ ?_
  · intro i _; exact Finset.mem_product.2 ⟨Finset.mem_univ _, Finset.mem_univ _⟩
  · intro lk _
    refine Finset.mem_filter.2 ⟨Finset.mem_univ _, funext fun ax => Fin.ext ?_⟩
    match ax with
    | ⟨0, _⟩ => exact d0 _
    | ⟨1, _⟩ => exact d1 _
  · intro i hi
    have hj := (Finset.mem_filter.1 hi).2
    funext ax; apply Fin.ext
    match ax with
    | ⟨0, _⟩ => show p.val = (i 0).val; rw [← d0 i, hj]; rfl
    | ⟨1, _⟩ => show q.val = (i 1).val; rw [← d1 i, hj]; rfl
    | ⟨2, _⟩ => rfl
    | ⟨3, _⟩ => rfl
  · intro lk _; rfl
  · intro i hi
    have hj := (Finset.mem_filter.1 hi).2
    refine congrArg x ?_
    funext ax; apply Fin.ext
    match ax with
    | ⟨0, _⟩ => show (i 0).val = p.val; rw [← d0 i, hj]; rfl
    | ⟨1, _⟩ => show (i 1).val = q.val; rw [← d1 i, hj]; rfl
    | ⟨2, _⟩ => rfl
    | ⟨3, _⟩ => rfl

end Cert.LibKeepdims

end
-- ==== Proof.LibRectify.lean ====
/-
  The rectifier beside an affine layer, entry by entry at the extended reals, as a vector unit writes it (the maximum
  with a splat of the zero word) and as host operations write it (the maximum with a rank-0 zero constant repeated
  over the shape): both are `max y 0`-by-the-zero-word at every entry.
-/
import proofs.«104896_j3023656976611_1_alg».proof.Proof.LibDense

noncomputable section
namespace Cert.Lib.Rectify
open Idealize.ShloMosaic
open Idealize.ShloMosaic.ValueIdx
open Cert.Lib.Dense

/-- The rectifier at one entry: the maximum with the f32 zero word's value. -/
def relu1 (y : EReal) : EReal :=
  FloatOps.maximumf (F := Ideal) (φ := .f32) y (Scalar.ofBits .f32 0x00000000#32)

/-- The rectifier over an array of entries. -/
def relu {S : Shape} (Y : S.Idx → EReal) : S.Idx → EReal := fun j => relu1 (Y j)

/-- The vector unit's rectifier: the maximum with a splat of the zero word. -/
theorem relu_vec {S : Shape} (Y : FVec Ideal S .f32) :
    maximumf Y (broadcast S (Scalar.ofBits .f32 0x00000000#32)) = relu Y := rfl

/-- The host's rectifier: the maximum with the rank-0 zero constant repeated over the shape. -/
theorem relu_host {S : Shape} (Y : FVec Ideal S .f32) (e : (⟨0, ![]⟩ : Shape).BroadcastsInDim S (![] : Fin 0 → Fin S.rank)) :
    maximumf Y (broadcastInDim S ![] e (constant ⟨0, ![]⟩ .f32 0x00000000#32)) = relu Y := by
  funext j
  show FloatOps.maximumf (Y j) (broadcastInDim S ![] e (constant (F := Ideal) ⟨0, ![]⟩ .f32 0x00000000#32) j) = _
  rw [splat0_apply]
  rfl

end Cert.Lib.Rectify
-- ==== Proof.KBlock0.lean ====
/-
  Layer 0's tile: what the first tiled computation leaves in its output block, as a function of the blocks it loaded,
  is layer 0 (parameters as rows, the column scale spelt with the reciprocal square root) of those blocks.
-/
import proofs.«104896_j3023656976611_1_alg».proof.Proof.Gen.KernelIdeal.Frame
import proofs.«104896_j3023656976611_1_alg».proof.Proof.ArrSpec
import proofs.«104896_j3023656976611_1_alg».proof.Proof.LibDense
import proofs.«104896_j3023656976611_1_alg».proof.Proof.LibKeepdims
import proofs.«104896_j3023656976611_1_alg».proof.Proof.LibRectify

set_option maxRecDepth 16384

noncomputable section

namespace Cert.KBlock

open Cert.KernelIdeal Cert.KernelIdeal.Gen Idealize.ShloMosaic Idealize.ShloMosaic.ValueIdx Cert.ArrSpec Cert.RowSpec
open scoped BigOperators

namespace Layer0

/-! ## Layout facts -/

/-- The zero offset pair, spelt as a constant function. -/
theorem hz : (![0, 0] : Fin 2 → Nat) = fun _ => 0 := funext fun a => by fin_cases a <;> rfl

/-- The block product's dimension numbers are the plain row-by-column ones. -/
theorem dot_eq : dot_S2000x128_S128x256_S2000x256_1_0_0_1_n_n = DotDims.plain 2000 128 256 := rfl

/-- A block product into the zero accumulator, read at (p, q): row p against column q. -/
theorem mm_apply (X : FVec Ideal S2000x128 .bf16) (W : FVec Ideal S128x256 .bf16) (p : Fin 2000) (q : Fin 256) :
    matmul dot_S2000x128_S128x256_S2000x256_1_0_0_1_n_n none X W (constant S2000x256 .f32 0x00000000#32) (ix2 p q)
      = ∑ k : Fin 128, X (ix2 p k) * W (ix2 k q) := by
  rw [dot_eq]
  exact Cert.Lib.Dense.plain_matmul_apply 2000 128 256 none X W (ix2 p q)

/-- The lane sum of a block, read at row p: the sum over the row's 256 entries. -/
theorem lanesum_apply (Y : FVec Ideal S2000x256 .f32) (hφ : FKind.Formats .f32)
    (hacc : (0x00000000#32 : BitVec 32) = 0x00000000#32) (p : Fin 2000) :
    multiReduction (F := Ideal) .add [1] S2000 Y 0x00000000#32 reduces_S2000x256_S2000 hφ hacc (ix1 p)
      = ∑ k : Fin 256, Y (ix2 p k) := by
  refine (Ideal.multiReduction_add_single Y 0x00000000#32 reduces_S2000x256_S2000 hφ hacc (ix1 p)).trans ?_
  refine Finset.sum_congr rfl fun k _ => congrArg Y ?_
  funext a
  match a with
  | ⟨0, _⟩ => rfl
  | ⟨1, _⟩ => rfl

/-- A [1, 256] row repeated down 2000 rows reads, at (p, q), the row's entry of column q. -/
theorem row_bcast_apply (v : FVec Ideal S1x256 .f32) (h : S1x256.Broadcasts S2000x256) (p : Fin 2000) (q : Fin 256) :
    broadcastTo S2000x256 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-! ## The affine block -/

/-- The affine block: aggregated rows against the first weight matrix, plus the bias row down the block, plus the
    node rows against the second weight matrix (the narrowing format changes are the identity on extended reals). -/
def aff (x0 x1 : Vec Ideal S2000x128 .f32) (x2 x4 : Vec Ideal S128x256 .f32) (x3 : Vec Ideal S1x256 .f32) :
    FVec Ideal S2000x256 .f32 :=
  addf
    (addf
      (matmul dot_S2000x128_S128x256_S2000x256_1_0_0_1_n_n none
        (truncf .bf16 (shapeCast S2000x128 x0 shapeCasts_S2000x128_S2000x128) bitsLt_bf16_f32) (truncf .bf16 x2 bitsLt_bf16_f32)
        (constant S2000x256 .f32 0x00000000#32))
      (broadcastTo S2000x256 (shapeCast S1x256 x3 shapeCasts_S1x256_S1x256) broadcasts_S1x256_S2000x256))
    (matmul dot_S2000x128_S128x256_S2000x256_1_0_0_1_n_n none
      (truncf .bf16 x1 bitsLt_bf16_f32) (truncf .bf16 x4 bitsLt_bf16_f32) (constant S2000x256 .f32 0x00000000#32))

/-- Entry (p, q) of the affine block is the affine row of node p at column q. -/
theorem aff_apply (x0 x1 : Vec Ideal S2000x128 .f32) (x2 x4 : Vec Ideal S128x256 .f32) (x3 : Vec Ideal S1x256 .f32)
    (p : Fin 2000) (q : Fin 256) :
    aff x0 x1 x2 x4 x3 (ix2 p q) = pre (rowOf x0 p) (rowOf x1 p) (ent x2) (ent x4) (rowv x3) q := by
  unfold aff
  rw [shapeCast_self, shapeCast_self]
  show (matmul (F := Ideal) dot_S2000x128_S128x256_S2000x256_1_0_0_1_n_n none
            (truncf (F := Ideal) (φ := .f32) .bf16 x0 bitsLt_bf16_f32) (truncf (F := Ideal) (φ := .f32) .bf16 x2 bitsLt_bf16_f32)
            (constant S2000x256 .f32 0x00000000#32) (ix2 p q)
        + broadcastTo S2000x256 x3 broadcasts_S1x256_S2000x256 (ix2 p q))
      + matmul (F := Ideal) dot_S2000x128_S128x256_S2000x256_1_0_0_1_n_n none
            (truncf (F := Ideal) (φ := .f32) .bf16 x1 bitsLt_bf16_f32) (truncf (F := Ideal) (φ := .f32) .bf16 x4 bitsLt_bf16_f32)
            (constant S2000x256 .f32 0x00000000#32) (ix2 p q) = _
  rw [mm_apply, mm_apply, row_bcast_apply]
  rfl

/-! ## The length column -/

/-- The floored Euclidean length of every row of a block, kept as a [2000, 1] column. -/
def lenCol (Y : FVec Ideal S2000x256 .f32) : FVec Ideal S2000x1 .f32 :=
  maximumf
    (sqrt (shapeCast S2000x1
      (multiReduction .add [1] S2000 (mulf Y Y) 0x00000000#32 reduces_S2000x256_S2000 (.inl rfl) rfl)
      shapeCasts_S2000_S2000x1))
    (broadcast S2000x1 (Scalar.ofBits .f32 0x2B8CBCCC#32))

/-- The column's entry of row p is the floored length of row p. -/
theorem lenCol_apply (Y : FVec Ideal S2000x256 .f32) (p : Fin 2000) :
    lenCol Y (ix2 p (0 : Fin 1)) = len (fun k : Fin 256 => Y (ix2 p k)) := by
  unfold lenCol len
  show max (Ideal.sqrt (shapeCast S2000x1
      (multiReduction (F := Ideal) .add [1] S2000 (mulf Y Y) 0x00000000#32 reduces_S2000x256_S2000 (.inl rfl) rfl)
      shapeCasts_S2000_S2000x1 (ix2 p (0 : Fin 1)))) tiny = _
  rw [Cert.LibKeepdims.shapeCast_a_a1_apply, lanesum_apply]
  rfl

/-! ## The payloads as compositions -/

/-- The unit-length rows less the mean row, as one composition of block operations. -/
theorem pay4_eq (x0 x1 : Vec Ideal S2000x128 .f32) (x2 x4 : Vec Ideal S128x256 .f32) (x3 x7 : Vec Ideal S1x256 .f32) :
    k0_pay4 (F := Ideal) x0 x1 x2 x4 x3 x7
      = subf (divf (aff x0 x1 x2 x4 x3) (broadcastTo S2000x256 (lenCol (aff x0 x1 x2 x4 x3)) broadcasts_S2000x1_S2000x256))
          (broadcastTo S2000x256 (shapeCast S1x256 x7 shapeCasts_S1x256_S1x256) broadcasts_S1x256_S2000x256) := rfl

/-- Entry (p, q) of that block: node p's unit-length affine row at column q, less the mean of column q. -/
theorem pay4_apply (x0 x1 : Vec Ideal S2000x128 .f32) (x2 x4 : Vec Ideal S128x256 .f32) (x3 x7 : Vec Ideal S1x256 .f32)
    (p : Fin 2000) (q : Fin 256) :
    k0_pay4 (F := Ideal) x0 x1 x2 x4 x3 x7 (ix2 p q)
      = unit (pre (rowOf x0 p) (rowOf x1 p) (ent x2) (ent x4) (rowv x3)) q - rowv x7 q := by
  rw [pay4_eq, shapeCast_self]
  show Ideal.div (aff x0 x1 x2 x4 x3 (ix2 p q))
        (broadcastTo S2000x256 (lenCol (aff x0 x1 x2 x4 x3)) broadcasts_S2000x1_S2000x256 (ix2 p q))
      - broadcastTo S2000x256 x7 broadcasts_S1x256_S2000x256 (ix2 p q) = _
  rw [Cert.LibKeepdims.broadcastTo_a1_ab_apply, lenCol_apply, row_bcast_apply, aff_apply]
  have hrow : (fun k : Fin 256 => aff x0 x1 x2 x4 x3 (ix2 p k))
      = pre (rowOf x0 p) (rowOf x1 p) (ent x2) (ent x4) (rowv x3) := funext fun k => aff_apply x0 x1 x2 x4 x3 p k
  rw [hrow]
  rfl

/-- The normalised, rectified block as one composition of block operations. -/
theorem pay1_eq (g b : FVec Ideal S1x256 .f32) (v : FVec Ideal S2000x256 .f32) (w : FVec Ideal S1x256 .f32) :
    k0_pay1 (F := Ideal) g b v w
      = maximumf
          (addf (mulf v (broadcastTo S2000x256 (mulf g (rsqrt w)) broadcasts_S1x256_S2000x256))
            (broadcastTo S2000x256 b broadcasts_S1x256_S2000x256))
          (broadcast S2000x256 (Scalar.ofBits .f32 0x00000000#32)) := rfl

/-- Entry (p, q) of it: the centred entry times the column scale, plus the shift, floored at the zero word. -/
theorem pay1_apply (g b : FVec Ideal S1x256 .f32) (v : FVec Ideal S2000x256 .f32) (w : FVec Ideal S1x256 .f32)
    (p : Fin 2000) (q : Fin 256) :
    k0_pay1 (F := Ideal) g b v w (ix2 p q)
      = max (v (ix2 p q) * (g (ix2 (0 : Fin 1) q) * Ideal.rsqrt (w (ix2 (0 : Fin 1) q))) + b (ix2 (0 : Fin 1) q)) zero := by
  rw [pay1_eq]
  show max (v (ix2 p q) * broadcastTo S2000x256 (mulf g (rsqrt w)) broadcasts_S1x256_S2000x256 (ix2 p q)
      + broadcastTo S2000x256 b broadcasts_S1x256_S2000x256 (ix2 p q)) zero = _
  rw [row_bcast_apply, row_bcast_apply]
  rfl

/-- The scale row, the shift row and the offset variance row are the loaded rows, entry by entry. -/
theorem pay2_eq (x : Vec Ideal S1x256 .f32) : k0_pay2 (F := Ideal) x = x := shapeCast_self x _
theorem pay3_eq (x : Vec Ideal S1x256 .f32) : k0_pay3 (F := Ideal) x = x := shapeCast_self x _
theorem pay5_apply (x : Vec Ideal S1x256 .f32) (q : Fin 256) :
    k0_pay5 (F := Ideal) x (ix2 (0 : Fin 1) q) = x (ix2 (0 : Fin 1) q) + eps := by
  unfold k0_pay5
  rw [shapeCast_self]
  rfl

end Layer0

open Layer0

/-- The tile's output block is layer 0 of its input blocks: rows of aggregated features `x0`, rows of node features
    `x1`, the two weight matrices `x2`, `x4`, the bias row `x3` and the four normalisation rows `x5 … x8`. -/
theorem out0_9_eq (x0 x1 : Vec Ideal S2000x128 .f32) (x2 : Vec Ideal S128x256 .f32) (x3 : Vec Ideal S1x256 .f32)
    (x4 : Vec Ideal S128x256 .f32) (x5 x6 x7 x8 : Vec Ideal S1x256 .f32) :
    out0_9 (F := Ideal) x0 x1 x2 x3 x4 x5 x6 x7 x8 = layer0K (M := 2000) (K := 128) x0 x1 x2 x4 x3 x5 x6 x7 x8 := by
  funext j
  obtain ⟨p, q, rfl⟩ : ∃ (p : Fin 2000) (q : Fin 256), j = ix2 p q := ⟨j 0, j 1, eq_ix2 j⟩
  unfold out0_9
  rw [View.canon_unit_zero hz]
  simp only [View.ld_unit_zero (S := S2000x128) hz, View.ld_unit_zero (S := S128x256) hz, View.ld_unit_zero (S := S1x256) hz]
  rw [pay1_apply, pay2_eq, pay3_eq, pay4_apply, pay5_apply]
  rfl

end Cert.KBlock

end
-- ==== Proof.KFinal0.lean ====
/-
  Layer 0 over the whole node array: the 25 tiles of 2000 rows cover the 50000 rows, each tile writes back layer 0 of
  its own rows (the layer is row-local), so after the tiled computation the output array is layer 0 of the arrays it
  was entered with.
-/
import proofs.«104896_j3023656976611_1_alg».proof.Proof.KBlock0
import Idealize.ShloMosaic.Lib.Pipeline.Value

set_option maxRecDepth 16384

noncomputable section

namespace Cert.KFinal

open Cert.KernelIdeal Cert.KernelIdeal.Gen Idealize.ShloMosaic Idealize.ShloMosaic.TcCoe Idealize.ShloMosaic.ValueIdx Idealize.SL.Sem
open Idealize.ShloMosaic.Pipeline (Dat)
open Cert.ArrSpec Cert.RowSpec

variable (V : (c : Dev nD) → (b : Ref sig .tc) → Buf (Elt Ideal) ((c : Thread nD τ).loc b))

/-! ## A block of rows of the layer is the layer of the blocks

  Entry (r, j) of layer 0 reads only row r of its two row-wise operands and the parameter arrays. So if row `y 0` of
  `A'`, `X'` is row `i 0` of `A`, `X`, the parameters agree, and the columns are the same, entry `y` of the layer of the
  primed arrays is entry `i` of the layer of the others. -/

/-- Row-locality of layer 0, entry by entry. -/
theorem layer0K_rows {M M' K : ℕ} (A X : Mat M K) (A' X' : Mat M' K) (Wl Wr Wl' Wr' : Mat K 256)
    (bl g b mu var bl' g' b' mu' var' : Mat 1 256)
    (y : (⟨2, ![M', 256]⟩ : Shape).Idx) (i : (⟨2, ![M, 256]⟩ : Shape).Idx)
    (hA : ∀ k : Fin K, A' (ix2 (y 0) k) = A (ix2 (i 0) k)) (hX : ∀ k : Fin K, X' (ix2 (y 0) k) = X (ix2 (i 0) k))
    (h1 : (y 1 : Fin 256) = i 1)
    (hWl : Wl' = Wl) (hWr : Wr' = Wr) (hbl : bl' = bl) (hg : g' = g) (hb : b' = b) (hmu : mu' = mu) (hvar : var' = var) :
    layer0K A' X' Wl' Wr' bl' g' b' mu' var' y = layer0K A X Wl Wr bl g b mu var i := by
  subst hWl hWr hbl hg hb hmu hvar
  unfold layer0K
  have eA : rowOf A' (y 0) = rowOf A (i 0) := funext hA
  have eX : rowOf X' (y 0) = rowOf X (i 0) := funext hX
  rw [eA, eX, h1]

/-! ## The windows' block indices over the grid, each decided over the 25 points -/

/-- At point `t` the three row-blocked windows (aggregated features, node features, output) are at block (t, 0). -/
theorem idx0_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_9.index t (0 : Fin 2) = t.val ∧ win0_9.index t (1 : Fin 2) = 0 :=
  (by decide +kernel : ∀ t : Fin grid0.N, _)

/-- The seven parameter windows are at block (0, 0) at every point. -/
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)

/-! ## The input blocks, read off the arrays

  A block's coordinate on an axis is block index × block size + the coordinate inside the block. -/

/-- Block `t` of the aggregated features: entry (r, k) of the block is entry (2000 t + r, k) of the array. -/
theorem blk0_0_apply (c : Dev nD) (t : Fin cfg0.N) (x : S2000x128.Idx) (k : S50000x128.Idx)
    (h0 : (k 0).val = t.val * 2000 + (x 0).val) (h1 : (k 1).val = (x 1).val) :
    (iblk0 V c 0 t : Vec Ideal S2000x128 .f32) x = (V c main_v21 : S50000x128.Idx → EReal) k := by
  obtain ⟨e0, e1, -⟩ := idx0_rows t
  unfold iblk0
  rw [View.read_apply]
  show V c main_v21 _ = V c main_v21 _
  congr 1
  funext a; apply Fin.ext
  match a with
  | ⟨0, _⟩ => show win0_0.index t (0 : Fin 2) * 2000 + 1 * (x 0).val = (k 0).val; rw [e0, h0]; omega
  | ⟨1, _⟩ => show win0_0.index t (1 : Fin 2) * 128 + 1 * (x 1).val = (k 1).val; rw [e1, h1]; omega

/-- Block `t` of the node features, likewise. -/
theorem blk0_1_apply (c : Dev nD) (t : Fin cfg0.N) (x : S2000x128.Idx) (k : S50000x128.Idx)
    (h0 : (k 0).val = t.val * 2000 + (x 0).val) (h1 : (k 1).val = (x 1).val) :
    (iblk0 V c 1 t : Vec Ideal S2000x128 .f32) x = (V c main_arg0 : S50000x128.Idx → EReal) k := by
  obtain ⟨-, -, e0, e1, -⟩ := idx0_rows t
  unfold iblk0
  rw [View.read_apply]
  show V c main_arg0 _ = V c main_arg0 _
  congr 1
  funext a; apply Fin.ext
  match a with
  | ⟨0, _⟩ => show win0_1.index t (0 : Fin 2) * 2000 + 1 * (x 0).val = (k 0).val; rw [e0, h0]; omega
  | ⟨1, _⟩ => show win0_1.index t (1 : Fin 2) * 128 + 1 * (x 1).val = (k 1).val; rw [e1, h1]; omega

/-- Window 2 holds all of the neighbour weights at every point. -/
theorem blk0_2_eq (c : Dev nD) (t : Fin cfg0.N) :
    (iblk0 V c 2 t : Vec Ideal S128x256 .f32) = (V c main_arg2 : S128x256.Idx → EReal) := by
  obtain ⟨e0, e1⟩ := idx0_2 t
  funext x
  unfold iblk0
  rw [View.read_apply]
  show V c main_arg2 _ = V c main_arg2 _
  congr 1
  funext a; apply Fin.ext
  match a with
  | ⟨0, _⟩ => show win0_2.index t (0 : Fin 2) * 128 + 1 * (x 0).val = (x 0).val; rw [e0]; omega
  | ⟨1, _⟩ => show win0_2.index t (1 : Fin 2) * 256 + 1 * (x 1).val = (x 1).val; rw [e1]; omega

/-- Window 3 holds all of the bias row at every point. -/
theorem blk0_3_eq (c : Dev nD) (t : Fin cfg0.N) :
    (iblk0 V c 3 t : Vec Ideal S1x256 .f32) = (V c main_v22 : S1x256.Idx → EReal) := by
  obtain ⟨e0, e1⟩ := idx0_3 t
  funext x
  unfold iblk0
  rw [View.read_apply]
  show V c main_v22 _ = V c main_v22 _
  congr 1
  funext a; apply Fin.ext
  match a with
  | ⟨0, _⟩ => show win0_3.index t (0 : Fin 2) * 1 + 1 * (x 0).val = (x 0).val; rw [e0]; omega
  | ⟨1, _⟩ => show win0_3.index t (1 : Fin 2) * 256 + 1 * (x 1).val = (x 1).val; rw [e1]; omega

/-- Window 4 holds all of the self weights at every point. -/
theorem blk0_4_eq (c : Dev nD) (t : Fin cfg0.N) :
    (iblk0 V c 4 t : Vec Ideal S128x256 .f32) = (V c main_arg4 : S128x256.Idx → EReal) := by
  obtain ⟨e0, e1⟩ := idx0_4 t
  funext x
  unfold iblk0
  rw [View.read_apply]
  show V c main_arg4 _ = V c main_arg4 _
  congr 1
  funext a; apply Fin.ext
  match a with
  | ⟨0, _⟩ => show win0_4.index t (0 : Fin 2) * 128 + 1 * (x 0).val = (x 0).val; rw [e0]; omega
  | ⟨1, _⟩ => show win0_4.index t (1 : Fin 2) * 256 + 1 * (x 1).val = (x 1).val; rw [e1]; omega

/-- Window 5 holds all of the scale row at every point. -/
theorem blk0_5_eq (c : Dev nD) (t : Fin cfg0.N) :
    (iblk0 V c 5 t : Vec Ideal S1x256 .f32) = (V c main_v23 : S1x256.Idx → EReal) := by
  obtain ⟨e0, e1⟩ := idx0_5 t
  funext x
  unfold iblk0
  rw [View.read_apply]
  show V c main_v23 _ = V c main_v23 _
  congr 1
  funext a; apply Fin.ext
  match a with
  | ⟨0, _⟩ => show win0_5.index t (0 : Fin 2) * 1 + 1 * (x 0).val = (x 0).val; rw [e0]; omega
  | ⟨1, _⟩ => show win0_5.index t (1 : Fin 2) * 256 + 1 * (x 1).val = (x 1).val; rw [e1]; omega

/-- Window 6 holds all of the shift row at every point. -/
theorem blk0_6_eq (c : Dev nD) (t : Fin cfg0.N) :
    (iblk0 V c 6 t : Vec Ideal S1x256 .f32) = (V c main_v24 : S1x256.Idx → EReal) := by
  obtain ⟨e0, e1⟩ := idx0_6 t
  funext x
  unfold iblk0
  rw [View.read_apply]
  show V c main_v24 _ = V c main_v24 _
  congr 1
  funext a; apply Fin.ext
  match a with
  | ⟨0, _⟩ => show win0_6.index t (0 : Fin 2) * 1 + 1 * (x 0).val = (x 0).val; rw [e0]; omega
  | ⟨1, _⟩ => show win0_6.index t (1 : Fin 2) * 256 + 1 * (x 1).val = (x 1).val; rw [e1]; omega

/-- Window 7 holds all of the mean row at every point. -/
theorem blk0_7_eq (c : Dev nD) (t : Fin cfg0.N) :
    (iblk0 V c 7 t : Vec Ideal S1x256 .f32) = (V c main_v25 : S1x256.Idx → EReal) := by
  obtain ⟨e0, e1⟩ := idx0_7 t
  funext x
  unfold iblk0
  rw [View.read_apply]
  show V c main_v25 _ = V c main_v25 _
  congr 1
  funext a; apply Fin.ext
  match a with
  | ⟨0, _⟩ => show win0_7.index t (0 : Fin 2) * 1 + 1 * (x 0).val = (x 0).val; rw [e0]; omega
  | ⟨1, _⟩ => show win0_7.index t (1 : Fin 2) * 256 + 1 * (x 1).val = (x 1).val; rw [e1]; omega

/-- Window 8 holds all of the variance row at every point. -/
theorem blk0_8_eq (c : Dev nD) (t : Fin cfg0.N) :
    (iblk0 V c 8 t : Vec Ideal S1x256 .f32) = (V c main_v26 : S1x256.Idx → EReal) := by
  obtain ⟨e0, e1⟩ := idx0_8 t
  funext x
  unfold iblk0
  rw [View.read_apply]
  show V c main_v26 _ = V c main_v26 _
  congr 1
  funext a; apply Fin.ext
  match a with
  | ⟨0, _⟩ => show win0_8.index t (0 : Fin 2) * 1 + 1 * (x 0).val = (x 0).val; rw [e0]; omega
  | ⟨1, _⟩ => show win0_8.index t (1 : Fin 2) * 256 + 1 * (x 1).val = (x 1).val; rw [e1]; omega

/-! ## What a point writes back, and the cover -/

/-- Point `t` writes back block `t` of layer 0 of the whole arrays: the block function is layer 0 of the input blocks,
    and the layer is row-local. -/
theorem flushed0_eq (c : Dev nD) (t : Fin cfg0.N) :
    (dat0 (F := Ideal) V c).flushed 9 t = ((cfg0.win 9).blk t).view.read (Elt Ideal)
      (layer0K (M := 50000) (K := 128) (V c main_v21) (V c main_arg0) (V c main_arg2) (V c main_arg4)
          (V c main_v22) (V c main_v23) (V c main_v24) (V c main_v25) (V c main_v26)) := by
  show (cfg0.win 9).cut (grid0.coords t) ((dat0 V c).after 9 t) = _
  rw [after0_9, Cert.KBlock.out0_9_eq]
  funext y
  show layer0K (M := 2000) (K := 128) (iblk0 V c 0 t) (iblk0 V c 1 t) (iblk0 V c 2 t) (iblk0 V c 4 t) (iblk0 V c 3 t) (iblk0 V c 5 t)
        (iblk0 V c 6 t) (iblk0 V c 7 t) (iblk0 V c 8 t) y
      = layer0K (M := 50000) (K := 128) (V c main_v21) (V c main_arg0) (V c main_arg2) (V c main_arg4) (V c main_v22) (V c main_v23)
        (V c main_v24) (V c main_v25) (V c main_v26) (((cfg0.win 9).blk t).view.emb y)
  obtain ⟨-, -, -, -, e0, e1⟩ := idx0_rows t
  have hy0 : (((cfg0.win 9).blk t).view.emb y 0).val = t.val * 2000 + (y 0).val := by
    show win0_9.index t (0 : Fin 2) * 2000 + 1 * (y 0).val = _
    rw [e0]; omega
  have hy1 : (((cfg0.win 9).blk t).view.emb y 1).val = (y 1).val := by
    show win0_9.index t (1 : Fin 2) * 256 + 1 * (y 1).val = _
    rw [e1]; omega
  exact layer0K_rows (M := 50000) (M' := 2000) (K := 128) (V c main_v21) (V c main_arg0) (iblk0 V c 0 t) (iblk0 V c 1 t)
    (V c main_arg2) (V c main_arg4) (iblk0 V c 2 t) (iblk0 V c 4 t)
    (V c main_v22) (V c main_v23) (V c main_v24) (V c main_v25) (V c main_v26)
    (iblk0 V c 3 t) (iblk0 V c 5 t) (iblk0 V c 6 t) (iblk0 V c 7 t) (iblk0 V c 8 t)
    y (((cfg0.win 9).blk t).view.emb y)
    (fun k => blk0_0_apply V c t _ _ hy0 rfl) (fun k => blk0_1_apply V c t _ _ hy0 rfl) (Fin.ext hy1.symm)
    (blk0_2_eq V c t) (blk0_4_eq V c t) (blk0_3_eq V c t) (blk0_5_eq V c t) (blk0_6_eq V c t) (blk0_7_eq V c t) (blk0_8_eq V c t)

/-- An index of the output array is in point `t`'s block iff each coordinate is in the block's range on its axis. -/
theorem mem_blk0_9 (t : Fin cfg0.N) (i : S50000x256.Idx) :
    i ∈ ((cfg0.win 9).blk t).view.set ↔ ∀ a : Fin 2, win0_9.index t a * S2000x256.size a ≤ (i a).val ∧ (i a).val < win0_9.index t a * S2000x256.size a + S2000x256.size a := by
  show i ∈ ((View.whole main_v27).slice (win0_9.rect t)).set ↔ _
  rw [View.set_slice_whole, Rect.mem_set_unit]
  exact Iff.rfl

/-- Every index of the output array is in some point's block: row r is in block r / 2000, and 25 × 2000 = 50000. -/
theorem cover0 (i : S50000x256.Idx) :
    ∃ t : Fin cfg0.N, (cfg0.win 9).flush t = true ∧ i ∈ ((cfg0.win 9).blk t).view.set := by
  have hi0 : (i 0).val < 50000 := (i 0).isLt
  have hi1 : (i 1).val < 256 := (i 1).isLt
  have hN : cfg0.N = 25 := N_0
  have ht : (i 0).val / 2000 < cfg0.N := by rw [hN]; omega
  obtain ⟨-, -, -, -, e0, e1⟩ := idx0_rows ⟨(i 0).val / 2000, ht⟩
  refine ⟨⟨(i 0).val / 2000, ht⟩, flush0_9 _, ?_⟩
  rw [mem_blk0_9]
  intro a
  match a with
  | ⟨0, _⟩ =>
    show win0_9.index ⟨(i 0).val / 2000, ht⟩ (0 : Fin 2) * 2000 ≤ (i 0).val ∧ (i 0).val < win0_9.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_9.index ⟨(i 0).val / 2000, ht⟩ (1 : Fin 2) * 256 ≤ (i 1).val ∧ (i 1).val < win0_9.index ⟨(i 0).val / 2000, ht⟩ (1 : Fin 2) * 256 + 256
    rw [e1]
    omega

/-- After the first tiled computation, entered at contents `V`, its output array is layer 0 of the aggregated
    features, the node features and the parameter arrays as `V` holds them. -/
theorem final0 (c : Dev nD) :
    (dat0 (F := Ideal) V c).arrAt 9 cfg0.N
      = layer0K (M := 50000) (K := 128) (V c main_v21) (V c main_arg0) (V c main_arg2) (V c main_arg4)
          (V c main_v22) (V c main_v23) (V c main_v24) (V c main_v25) (V c main_v26) :=
  (dat0 (F := Ideal) V c).arrAt_eq_of_cover 9 _ (fun t _ => flushed0_eq V c t) cover0

end Cert.KFinal

end
-- ==== Proof.KBlock1.lean ====
/-
  Layer 1's tile: what the second tiled computation leaves in its output block, as a function of the blocks it
  loaded, is layer 1 (the bias as a row) of those blocks.

  The block is computed in three stretches, each read here at one entry (p, q): the affine part — two row-major
  products into zero accumulators and the bias row repeated down the block —, and twice the scaling of every row to
  unit length: the row's sum of squares kept as a column, its square root floored at the tiny word, the column spread
  back over the row, the quotient. The narrowing format changes are the identity on extended reals.
-/
import proofs.«104896_j3023656976611_1_alg».proof.Proof.Gen.KernelIdeal.Frame
import proofs.«104896_j3023656976611_1_alg».proof.Proof.ArrSpec
import proofs.«104896_j3023656976611_1_alg».proof.Proof.LibDense
import proofs.«104896_j3023656976611_1_alg».proof.Proof.LibKeepdims

set_option maxRecDepth 16384

noncomputable section

open scoped BigOperators

namespace Cert.KBlock

open Cert.KernelIdeal Cert.KernelIdeal.Gen Idealize.ShloMosaic Idealize.ShloMosaic.ValueIdx Cert.ArrSpec Cert.RowSpec

/-- The sum along a row of a [2000, 256] block, kept per row. -/
theorem layer1_laneSum (w : FVec Ideal S2000x256 .f32) (p : Fin 2000) :
    multiReduction (F := Ideal) .add [1] S2000 w 0x00000000#32 reduces_S2000x256_S2000 (.inl rfl) rfl (ix1 p)
      = ∑ k : Fin 256, w (ix2 p k) := by
  refine (Ideal.multiReduction_add_single w 0x00000000#32 reduces_S2000x256_S2000 (.inl rfl) rfl (ix1 p)).trans ?_
  refine Finset.sum_congr rfl fun k _ => congrArg w ?_
  funext a
  match a with
  | ⟨0, _⟩ => rfl
  | ⟨1, _⟩ => rfl

/-- A block scaled row by row to unit length: the row's sum of squares, kept as a column, its square root floored at the
    tiny word, spread back over the row, and the quotient. At entry (p, q) this is `unit` of row p at column q. -/
theorem layer1_unitStep (v : FVec Ideal S2000x256 .f32) (p : Fin 2000) (q : Fin 256) :
    divf v (broadcastTo S2000x256
        (maximumf (sqrt (shapeCast S2000x1
            (multiReduction (F := Ideal) .add [1] S2000 (mulf v v) 0x00000000#32 reduces_S2000x256_S2000 (.inl rfl) rfl)
            shapeCasts_S2000_S2000x1))
          (broadcast S2000x1 (Scalar.ofBits .f32 0x2B8CBCCC#32)))
        broadcasts_S2000x1_S2000x256) (ix2 p q)
      = unit (fun k => v (ix2 p k)) q := by
  show Ideal.div (v (ix2 p q)) (broadcastTo S2000x256 _ broadcasts_S2000x1_S2000x256 (ix2 p q)) = _
  rw [Cert.LibKeepdims.broadcastTo_a1_ab_apply]
  show Ideal.div (v (ix2 p q)) (max (Ideal.sqrt (shapeCast S2000x1 _ shapeCasts_S2000_S2000x1 (ix2 p (0 : Fin 1)))) tiny) = _
  rw [Cert.LibKeepdims.shapeCast_a_a1_apply, layer1_laneSum]
  rfl

/-- The printed contraction record is the row-major [2000, 256] by [256, 256] product. -/
theorem layer1_dot_eq : dot_S2000x256_S256x256_S2000x256_1_0_0_1_n_n = DotDims.plain 2000 256 256 := rfl

/-- The bias row [1, 256] repeated down a [2000, 256] block reads, at (p, q), the row's entry of column q. -/
theorem layer1_biasRow (b : FVec Ideal S1x256 .f32) (p : Fin 2000) (q : Fin 256) :
    broadcastTo S2000x256 b broadcasts_S1x256_S2000x256 (ix2 p q) = b (ix2 0 q) := by
  refine broadcastTo_apply b broadcasts_S1x256_S2000x256 (ix2 p q) (ix2 0 q) fun a => ?_
  match a with
  | ⟨0, _⟩ => rfl
  | ⟨1, _⟩ => rfl

/-- The affine part at an entry: row p of the first operand against column q of its weights, plus the bias of column q,
    plus row p of the second operand against column q of its weights. -/
theorem layer1_preStep (a h : FVec Ideal S2000x256 .f32) (Wl Wr : FVec Ideal S256x256 .f32) (b : FVec Ideal S1x256 .f32)
    (p : Fin 2000) (q : Fin 256) :
    addf (addf (matmul dot_S2000x256_S256x256_S2000x256_1_0_0_1_n_n none
            (truncf .bf16 (shapeCast S2000x256 a shapeCasts_S2000x256_S2000x256) bitsLt_bf16_f32)
            (truncf .bf16 Wl bitsLt_bf16_f32) (constant S2000x256 .f32 0x00000000#32))
          (broadcastTo S2000x256 (shapeCast S1x256 b shapeCasts_S1x256_S1x256) broadcasts_S1x256_S2000x256))
        (matmul dot_S2000x256_S256x256_S2000x256_1_0_0_1_n_n none
            (truncf .bf16 (shapeCast S2000x256 h shapeCasts_S2000x256_S2000x256) bitsLt_bf16_f32)
            (truncf .bf16 Wr bitsLt_bf16_f32) (constant S2000x256 .f32 0x00000000#32)) (ix2 p q)
      = pre (rowOf a p) (rowOf h p) (ent Wl) (ent Wr) (rowv b) q := by
  rw [shapeCast_self, shapeCast_self, shapeCast_self, layer1_dot_eq]
  show FloatOps.matmul (DotDims.plain 2000 256 256) none a Wl (constant _ .f32 0x00000000#32) (ix2 p q)
        + broadcastTo S2000x256 b broadcasts_S1x256_S2000x256 (ix2 p q)
        + FloatOps.matmul (DotDims.plain 2000 256 256) none h Wr (constant _ .f32 0x00000000#32) (ix2 p q) = _
  rw [Cert.Lib.Dense.plain_matmul_apply, Cert.Lib.Dense.plain_matmul_apply, layer1_biasRow]
  rfl

/-- The tile's output block is layer 1 of its input blocks: rows of aggregated hidden features `x0`, rows of hidden
    features `x1`, the two weight matrices `x2`, `x4` and the bias row `x3`. -/
theorem out1_5_eq (x0 x1 : Vec Ideal S2000x256 .f32) (x2 : Vec Ideal S256x256 .f32) (x3 : Vec Ideal S1x256 .f32)
    (x4 : Vec Ideal S256x256 .f32) :
    out1_5 (F := Ideal) x0 x1 x2 x3 x4 = layer1K (M := 2000) (K := 256) x0 x1 x2 x4 x3 := by
  funext j
  obtain ⟨p, q, rfl⟩ : ∃ (p : Fin 2000) (q : Fin 256), j = ix2 p q := ⟨j 0, j 1, eq_ix2 j⟩
  have hz : (![0, 0] : Fin 2 → Nat) = fun _ => 0 := funext fun a => by fin_cases a <;> rfl
  unfold out1_5
  rw [View.canon_unit_zero hz]
  simp only [View.ld_unit_zero (S := S2000x256) hz, View.ld_unit_zero (S := S256x256) hz,
    View.ld_unit_zero (S := S1x256) hz]
  unfold k1_pay1
  refine (layer1_unitStep _ p q).trans ?_
  show unit _ q = unit (unit (pre (rowOf x0 p) (rowOf x1 p) (ent x2) (ent x4) (rowv x3))) q
  refine congrArg (fun r => unit r q) (funext fun k => ?_)
  refine (layer1_unitStep _ p k).trans ?_
  refine congrArg (fun r => unit r k) (funext fun k' => ?_)
  exact layer1_preStep x0 x1 x2 x4 x3 p k'

end Cert.KBlock

end
-- ==== Proof.KFinal1.lean ====
/-
  Layer 1 over the whole node array: the 25 tiles of 2000 rows cover the 50000 rows, each tile writes back layer 1 of
  its own rows, so after the tiled computation the output array is layer 1 of the arrays it was entered with.
-/
import proofs.«104896_j3023656976611_1_alg».proof.Proof.KBlock1
import Idealize.ShloMosaic.Lib.Pipeline.Value

set_option maxRecDepth 16384

noncomputable section

namespace Cert.KFinal

open Cert.KernelIdeal Cert.KernelIdeal.Gen Idealize.ShloMosaic Idealize.ShloMosaic.TcCoe Idealize.ShloMosaic.ValueIdx Idealize.SL.Sem
open Idealize.ShloMosaic.Pipeline (Dat)
open Cert.ArrSpec Cert.RowSpec

variable (V : (c : Dev nD) → (b : Ref sig .tc) → Buf (Elt Ideal) ((c : Thread nD τ).loc b))

/-! ## A block of rows of the layer is the layer of the blocks

  Entry (r, j) of layer 1 reads only row r of its two row-wise operands and the parameter arrays. So if row `y 0` of
  `A'`, `H'` is row `i 0` of `A`, `H`, the parameters agree, and the columns are the same, entry `y` of the layer of the
  primed arrays is entry `i` of the layer of the others. -/

/-- Row-locality of layer 1, entry by entry. -/
theorem layer1K_rows {M M' K : ℕ} (A H : Mat M K) (A' H' : Mat M' K) (Wl Wr Wl' Wr' : Mat K 256) (bl bl' : Mat 1 256)
    (y : (⟨2, ![M', 256]⟩ : Shape).Idx) (i : (⟨2, ![M, 256]⟩ : Shape).Idx)
    (hA : ∀ k : Fin K, A' (ix2 (y 0) k) = A (ix2 (i 0) k)) (hH : ∀ k : Fin K, H' (ix2 (y 0) k) = H (ix2 (i 0) k))
    (h1 : (y 1 : Fin 256) = i 1) (hWl : Wl' = Wl) (hWr : Wr' = Wr) (hbl : bl' = bl) :
    layer1K A' H' Wl' Wr' bl' y = layer1K A H Wl Wr bl i := by
  subst hWl hWr hbl
  unfold layer1K
  have eA : rowOf A' (y 0) = rowOf A (i 0) := funext hA
  have eH : rowOf H' (y 0) = rowOf H (i 0) := funext hH
  rw [eA, eH, h1]

/-! ## The windows' block indices over the grid, each decided over the 25 points -/

/-- At point `t` the three row-blocked windows (aggregated hidden features, hidden features, output) are at block
    (t, 0). -/
theorem idx1_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_5.index t (0 : Fin 2) = t.val ∧ win1_5.index t (1 : Fin 2) = 0 :=
  (by decide +kernel : ∀ t : Fin grid1.N, _)

/-- The three parameter windows are at block (0, 0) at every point. -/
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)

/-! ## The input blocks, read off the arrays

  A block's coordinate on an axis is block index × block size + the coordinate inside the block. -/

/-- Block `t` of the aggregated hidden features: entry (r, k) of the block is entry (2000 t + r, k) of the array. -/
theorem blk1_0_apply (c : Dev nD) (t : Fin cfg1.N) (x : S2000x256.Idx) (k : S50000x256.Idx)
    (h0 : (k 0).val = t.val * 2000 + (x 0).val) (h1 : (k 1).val = (x 1).val) :
    (iblk1 V c 0 t : Vec Ideal S2000x256 .f32) x = (V c main_v39 : S50000x256.Idx → EReal) k := by
  obtain ⟨e0, e1, -⟩ := idx1_rows t
  unfold iblk1
  rw [View.read_apply]
  show V c main_v39 _ = V c main_v39 _
  congr 1
  funext a; apply Fin.ext
  match a with
  | ⟨0, _⟩ => show win1_0.index t (0 : Fin 2) * 2000 + 1 * (x 0).val = (k 0).val; rw [e0, h0]; omega
  | ⟨1, _⟩ => show win1_0.index t (1 : Fin 2) * 256 + 1 * (x 1).val = (k 1).val; rw [e1, h1]; omega

/-- Block `t` of the hidden features, likewise. -/
theorem blk1_1_apply (c : Dev nD) (t : Fin cfg1.N) (x : S2000x256.Idx) (k : S50000x256.Idx)
    (h0 : (k 0).val = t.val * 2000 + (x 0).val) (h1 : (k 1).val = (x 1).val) :
    (iblk1 V c 1 t : Vec Ideal S2000x256 .f32) x = (V c main_v27 : S50000x256.Idx → EReal) k := by
  obtain ⟨-, -, e0, e1, -⟩ := idx1_rows t
  unfold iblk1
  rw [View.read_apply]
  show V c main_v27 _ = V c main_v27 _
  congr 1
  funext a; apply Fin.ext
  match a with
  | ⟨0, _⟩ => show win1_1.index t (0 : Fin 2) * 2000 + 1 * (x 0).val = (k 0).val; rw [e0, h0]; omega
  | ⟨1, _⟩ => show win1_1.index t (1 : Fin 2) * 256 + 1 * (x 1).val = (k 1).val; rw [e1, h1]; omega

/-- Window 2 holds all of the neighbour weights at every point. -/
theorem blk1_2_eq (c : Dev nD) (t : Fin cfg1.N) :
    (iblk1 V c 2 t : Vec Ideal S256x256 .f32) = (V c main_arg5 : S256x256.Idx → EReal) := by
  obtain ⟨e0, e1⟩ := idx1_2 t
  funext x
  unfold iblk1
  rw [View.read_apply]
  show V c main_arg5 _ = V c main_arg5 _
  congr 1
  funext a; apply Fin.ext
  match a with
  | ⟨0, _⟩ => show win1_2.index t (0 : Fin 2) * 256 + 1 * (x 0).val = (x 0).val; rw [e0]; omega
  | ⟨1, _⟩ => show win1_2.index t (1 : Fin 2) * 256 + 1 * (x 1).val = (x 1).val; rw [e1]; omega

/-- Window 3 holds all of the bias row at every point. -/
theorem blk1_3_eq (c : Dev nD) (t : Fin cfg1.N) :
    (iblk1 V c 3 t : Vec Ideal S1x256 .f32) = (V c main_v40 : S1x256.Idx → EReal) := by
  obtain ⟨e0, e1⟩ := idx1_3 t
  funext x
  unfold iblk1
  rw [View.read_apply]
  show V c main_v40 _ = V c main_v40 _
  congr 1
  funext a; apply Fin.ext
  match a with
  | ⟨0, _⟩ => show win1_3.index t (0 : Fin 2) * 1 + 1 * (x 0).val = (x 0).val; rw [e0]; omega
  | ⟨1, _⟩ => show win1_3.index t (1 : Fin 2) * 256 + 1 * (x 1).val = (x 1).val; rw [e1]; omega

/-- Window 4 holds all of the self weights at every point. -/
theorem blk1_4_eq (c : Dev nD) (t : Fin cfg1.N) :
    (iblk1 V c 4 t : Vec Ideal S256x256 .f32) = (V c main_arg7 : S256x256.Idx → EReal) := by
  obtain ⟨e0, e1⟩ := idx1_4 t
  funext x
  unfold iblk1
  rw [View.read_apply]
  show V c main_arg7 _ = V c main_arg7 _
  congr 1
  funext a; apply Fin.ext
  match a with
  | ⟨0, _⟩ => show win1_4.index t (0 : Fin 2) * 256 + 1 * (x 0).val = (x 0).val; rw [e0]; omega
  | ⟨1, _⟩ => show win1_4.index t (1 : Fin 2) * 256 + 1 * (x 1).val = (x 1).val; rw [e1]; omega

/-! ## What a point writes back, and the cover -/

/-- Point `t` writes back block `t` of layer 1 of the whole arrays: the block function is layer 1 of the input blocks,
    and the layer is row-local. -/
theorem flushed1_eq (c : Dev nD) (t : Fin cfg1.N) :
    (dat1 (F := Ideal) V c).flushed 5 t = ((cfg1.win 5).blk t).view.read (Elt Ideal)
      (layer1K (M := 50000) (K := 256) (V c main_v39) (V c main_v27) (V c main_arg5) (V c main_arg7) (V c main_v40)) := by
  show (cfg1.win 5).cut (grid1.coords t) ((dat1 V c).after 5 t) = _
  rw [after1_5, Cert.KBlock.out1_5_eq]
  funext y
  show layer1K (M := 2000) (K := 256) (iblk1 V c 0 t) (iblk1 V c 1 t) (iblk1 V c 2 t) (iblk1 V c 4 t) (iblk1 V c 3 t) y
      = layer1K (M := 50000) (K := 256) (V c main_v39) (V c main_v27) (V c main_arg5) (V c main_arg7) (V c main_v40)
        (((cfg1.win 5).blk t).view.emb y)
  obtain ⟨-, -, -, -, e0, e1⟩ := idx1_rows t
  have hy0 : (((cfg1.win 5).blk t).view.emb y 0).val = t.val * 2000 + (y 0).val := by
    show win1_5.index t (0 : Fin 2) * 2000 + 1 * (y 0).val = _
    rw [e0]; omega
  have hy1 : (((cfg1.win 5).blk t).view.emb y 1).val = (y 1).val := by
    show win1_5.index t (1 : Fin 2) * 256 + 1 * (y 1).val = _
    rw [e1]; omega
  exact layer1K_rows (M := 50000) (M' := 2000) (K := 256) (V c main_v39) (V c main_v27) (iblk1 V c 0 t) (iblk1 V c 1 t)
    (V c main_arg5) (V c main_arg7) (iblk1 V c 2 t) (iblk1 V c 4 t) (V c main_v40) (iblk1 V c 3 t)
    y (((cfg1.win 5).blk t).view.emb y)
    (fun k => blk1_0_apply V c t _ _ hy0 rfl) (fun k => blk1_1_apply V c t _ _ hy0 rfl) (Fin.ext hy1.symm)
    (blk1_2_eq V c t) (blk1_4_eq V c t) (blk1_3_eq V c t)

/-- An index of the output array is in point `t`'s block iff each coordinate is in the block's range on its axis. -/
theorem mem_blk1_5 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v41).slice (win1_5.rect t)).set ↔ _
  rw [View.set_slice_whole, Rect.mem_set_unit]
  exact Iff.rfl

/-- Every index of the output array is in some point's block: row r is in block r / 2000, and 25 × 2000 = 50000. -/
theorem cover1 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  have ht : (i 0).val / 2000 < cfg1.N := by rw [hN]; omega
  obtain ⟨-, -, -, -, e0, e1⟩ := idx1_rows ⟨(i 0).val / 2000, ht⟩
  refine ⟨⟨(i 0).val / 2000, ht⟩, flush1_5 _, ?_⟩
  rw [mem_blk1_5]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, ht⟩ (1 : Fin 2) * 256 ≤ (i 1).val ∧ (i 1).val < win1_5.index ⟨(i 0).val / 2000, ht⟩ (1 : Fin 2) * 256 + 256
    rw [e1]
    omega

/-- After the second tiled computation, entered at contents `V`, its output array is layer 1 of the aggregated
    hidden features, the hidden features and the parameter arrays as `V` holds them. -/
theorem final1 (c : Dev nD) :
    (dat1 (F := Ideal) V c).arrAt 5 cfg1.N
      = layer1K (M := 50000) (K := 256) (V c main_v39) (V c main_v27) (V c main_arg5) (V c main_arg7) (V c main_v40) :=
  (dat1 (F := Ideal) V c).arrAt_eq_of_cover 5 _ (fun t _ => flushed1_eq V c t) cover1

end Cert.KFinal

end
-- ==== Proof.RefAgg.lean ====
/-
  The neighbourhood mean over the hidden features, as ONE function of the hidden array and the edge list: gather the
  source rows, add them up at their destination rows, divide by the floored in-degree. Both programs apply exactly
  these operations; nothing here opens them.
-/
import proofs.«104896_j3023656976611_1_alg».proof.Proof.RefReadP

set_option maxRecDepth 16384

noncomputable section

namespace Cert.RefAgg

open Cert.ReferenceIdeal Cert.ReferenceIdeal.Gen Cert.ReferenceIdeal.ReadP Idealize.ShloMosaic

variable {F : FTy → Type} [FloatOps F]

/-- The same mean from the three vectors it is made of: the source indices `s`, the destination indices `d` and the
    floored in-degree column `n`. Negative source indices wrap once (by the node count), the gathered rows are summed
    at their destinations, and each row's sum is divided by its node's floored in-degree. -/
def aggOf (h : (⟨S50000x256, .f32⟩ : BufTy).Contents (Elt F)) (s d : (⟨S640000, .i32⟩ : BufTy).Contents (Elt F))
    (n : (⟨S50000x1, .f32⟩ : BufTy).Contents (Elt F)) : (⟨S50000x256, .f32⟩ : BufTy).Contents (Elt F) :=
  Host.divf
    (Host.scatterAdd scatter_S50000x256_S640000x1_S640000x256_1_0_0_1
      (broadcastInDim S50000x256 ![] bcast_S_S50000x256 (constant S_ .f32 0x00000000#32))
      (broadcastInDim S640000x1 ![0] bcast_S640000_S640000x1_0 d)
      (Host.gather gather_S50000x256_S640000x1_S640000x256_1_0_n_n_0_1_1256 h
        (broadcastInDim S640000x1 ![0] bcast_S640000_S640000x1_0
          (select (cmpi .slt s (broadcastInDim S640000 ![] bcast_S_S640000 (constantI S_ 32 0#32)))
            (addi s (broadcastInDim S640000 ![] bcast_S_S640000 (constantI S_ 32 50000#32))) s))))
    (broadcastInDim S50000x256 ![0, 1] bcast_S50000x1_S50000x256_0_1 n)

/-- The mean of the hidden rows `h` of each node's in-neighbours along the edges `x1`. -/
def agg1 (h : (⟨S50000x256, .f32⟩ : BufTy).Contents (Elt F)) (x1 : (⟨S2x640000, .i32⟩ : BufTy).Contents (Elt F)) :
    (⟨S50000x256, .f32⟩ : BufTy).Contents (Elt F) :=
  Host.divf
    (Host.scatterAdd scatter_S50000x256_S640000x1_S640000x256_1_0_0_1 (val_main_v57 (F := F)) (val_main_v58 (F := F) x1)
      (Host.gather gather_S50000x256_S640000x1_S640000x256_1_0_n_n_0_1_1256 h (val_main_v55 (F := F) x1)))
    (val_main_v66 (F := F) x1)

/-- The reference's second aggregation is that function of its hidden array. -/
theorem v67_eq (x0 : (⟨S50000x128, .f32⟩ : BufTy).Contents (Elt F)) (x1 : (⟨S2x640000, .i32⟩ : BufTy).Contents (Elt F))
    (x2 : (⟨S128x256, .f32⟩ : BufTy).Contents (Elt F)) (x3 : (⟨S256, .f32⟩ : BufTy).Contents (Elt F))
    (x4 : (⟨S128x256, .f32⟩ : BufTy).Contents (Elt F)) (x8 x9 x10 x11 : (⟨S256, .f32⟩ : BufTy).Contents (Elt F)) :
    val_main_v67 (F := F) x0 x1 x2 x3 x4 x8 x9 x10 x11 = agg1 (val_main_v49 (F := F) x0 x1 x2 x3 x4 x8 x9 x10 x11) x1 := rfl

/-- The aggregation along the edges `x1` is the one made of the edge list's source row, destination row and floored
    in-degree column (the column is computed once per layer by the same operations: one value). -/
theorem agg1_eq (h : (⟨S50000x256, .f32⟩ : BufTy).Contents (Elt F)) (x1 : (⟨S2x640000, .i32⟩ : BufTy).Contents (Elt F)) :
    agg1 h x1 = aggOf h (val_main_v1 (F := F) x1) (val_main_v3 (F := F) x1) (val_main_v19 (F := F) x1) := rfl

end Cert.RefAgg

end
-- ==== Proof.KHost.lean ====
/-
  The tiled program's two stretches of host operations, read as values. Before the first tiled computation the host
  forms the first neighbourhood mean of the node features and lays the five parameter vectors out as rows; between
  the two it forms the neighbourhood mean of the hidden array and lays the second bias out as a row. Each buffer a
  stretch writes is the corresponding stage of the whole-array computation applied to the buffers the stretch reads;
  the buffers a stretch does not write keep their contents.
-/
import proofs.«104896_j3023656976611_1_alg».proof.Proof.Gen.KernelIdeal.Launch
import proofs.«104896_j3023656976611_1_alg».proof.Proof.RefAgg
import Idealize.ShloMosaic.Lib.StableHlo.Run

set_option maxRecDepth 16384

noncomputable section

namespace Cert.KHost

open Cert.KernelIdeal Cert.KernelIdeal.Gen
open Idealize.ShloMosaic Idealize.ShloMosaic.TcCoe Idealize.SL.Sem Idealize.ShloMosaic.StableHlo

variable {F : FTy → Type} [FloatOps F]
variable (W : Valuation τ sig (Elt F))

/-! ## Before the first tiled computation -/

set_option maxHeartbeats 2000000 in
/-- The first neighbourhood mean. -/
theorem s0_v21 : after hostOps0 W (Proc.devRef .tc main_v21)
    = Cert.ReferenceIdeal.ReadP.val_main_v21 (F := F) (W (Proc.devRef .tc main_arg0)) (W (Proc.devRef .tc main_arg1)) := by
  after_results_simp; rfl

/-- The edge list's source row. -/
theorem s0_v1 : after hostOps0 W (Proc.devRef .tc main_v1) = Cert.ReferenceIdeal.ReadP.val_main_v1 (F := F) (W (Proc.devRef .tc main_arg1)) := by
  after_results; rfl

/-- The edge list's destination row. -/
theorem s0_v3 : after hostOps0 W (Proc.devRef .tc main_v3) = Cert.ReferenceIdeal.ReadP.val_main_v3 (F := F) (W (Proc.devRef .tc main_arg1)) := by
  after_results; rfl

/-- The floored in-degree column. -/
theorem s0_v9 : after hostOps0 W (Proc.devRef .tc main_v9) = Cert.ReferenceIdeal.ReadP.val_main_v19 (F := F) (W (Proc.devRef .tc main_arg1)) := by
  after_results; rfl

/-- The first bias as a row. -/
theorem s0_v22 : after hostOps0 W (Proc.devRef .tc main_v22) = shapeCast S1x256 (W (Proc.devRef .tc main_arg3)) shapeCasts_S256_S1x256 := by
  after_results; rfl

/-- The normalisation's scale vector as a row. -/
theorem s0_v23 : after hostOps0 W (Proc.devRef .tc main_v23) = shapeCast S1x256 (W (Proc.devRef .tc main_arg8)) shapeCasts_S256_S1x256 := by
  after_results; rfl

/-- The normalisation's shift vector as a row. -/
theorem s0_v24 : after hostOps0 W (Proc.devRef .tc main_v24) = shapeCast S1x256 (W (Proc.devRef .tc main_arg9)) shapeCasts_S256_S1x256 := by
  after_results; rfl

/-- The normalisation's mean vector as a row. -/
theorem s0_v25 : after hostOps0 W (Proc.devRef .tc main_v25) = shapeCast S1x256 (W (Proc.devRef .tc main_arg10)) shapeCasts_S256_S1x256 := by
  after_results; rfl

/-- The normalisation's variance vector as a row. -/
theorem s0_v26 : after hostOps0 W (Proc.devRef .tc main_v26) = shapeCast S1x256 (W (Proc.devRef .tc main_arg11)) shapeCasts_S256_S1x256 := by
  after_results; rfl

/-! The arguments the later items read are not written by the stretch. -/
theorem s0_arg0 : after hostOps0 W (Proc.devRef .tc main_arg0) = W (Proc.devRef .tc main_arg0) := by
  after_results_simp
theorem s0_arg2 : after hostOps0 W (Proc.devRef .tc main_arg2) = W (Proc.devRef .tc main_arg2) := by
  after_results_simp
theorem s0_arg4 : after hostOps0 W (Proc.devRef .tc main_arg4) = W (Proc.devRef .tc main_arg4) := by
  after_results_simp
theorem s0_arg5 : after hostOps0 W (Proc.devRef .tc main_arg5) = W (Proc.devRef .tc main_arg5) := by
  after_results_simp
theorem s0_arg6 : after hostOps0 W (Proc.devRef .tc main_arg6) = W (Proc.devRef .tc main_arg6) := by
  after_results_simp
theorem s0_arg7 : after hostOps0 W (Proc.devRef .tc main_arg7) = W (Proc.devRef .tc main_arg7) := by
  after_results_simp

/-! ## Between the two tiled computations -/

/-- The neighbourhood mean of the hidden array, made of the source row, destination row and in-degree column the
    first stretch left. -/
theorem s1_v39 : after hostOps1 W (Proc.devRef .tc main_v39)
    = Cert.RefAgg.aggOf (F := F) (W (Proc.devRef .tc main_v27)) (W (Proc.devRef .tc main_v1)) (W (Proc.devRef .tc main_v3))
        (W (Proc.devRef .tc main_v9)) := by
  after_results_simp; rfl

/-- The second bias as a row. -/
theorem s1_v40 : after hostOps1 W (Proc.devRef .tc main_v40) = shapeCast S1x256 (W (Proc.devRef .tc main_arg6)) shapeCasts_S256_S1x256 := by
  after_results; rfl

/-! The hidden array and the second layer's weights are not written by the stretch. -/
theorem s1_v27 : after hostOps1 W (Proc.devRef .tc main_v27) = W (Proc.devRef .tc main_v27) := by
  after_results_simp
theorem s1_arg5 : after hostOps1 W (Proc.devRef .tc main_arg5) = W (Proc.devRef .tc main_arg5) := by
  after_results_simp
theorem s1_arg7 : after hostOps1 W (Proc.devRef .tc main_arg7) = W (Proc.devRef .tc main_arg7) := by
  after_results_simp

end Cert.KHost

end
-- ==== Proof.KValue.lean ====
/-
  What the tiled program's result buffer holds at the end of its run, as one expression of the arguments: layer 1 of
  (the neighbourhood mean of the hidden array, the hidden array, the second layer's parameters), the hidden array
  being layer 0 of (the neighbourhood mean of the node features, the node features, the first layer's parameters).
  The buffer contents at the end are a fold through the program's four segments; the fold is walked back one segment
  at a time: a tiled computation's output array is its layer of the arrays it was entered with, a host stretch's
  outputs are the stages of the buffers it reads, and every other buffer is carried across unchanged.
-/
import proofs.«104896_j3023656976611_1_alg».proof.Proof.KFinal0
import proofs.«104896_j3023656976611_1_alg».proof.Proof.KFinal1
import proofs.«104896_j3023656976611_1_alg».proof.Proof.KHost

set_option maxRecDepth 16384

noncomputable section

namespace Cert.KValue

open Cert.KernelIdeal Cert.KernelIdeal.Gen
open Idealize.ShloMosaic Idealize.ShloMosaic.TcCoe Idealize.SL.Sem Idealize.ShloMosaic.StableHlo
open Cert.ArrSpec Cert.KHost

variable (m : (ℓ : Loc nD τ sig) → Buf (Elt Ideal) ℓ) (ρ : Dev nD → PrngReg)

/-- A parameter vector laid out as a row. -/
abbrev asRow (b : FVec Ideal S256 .f32) : FVec Ideal S1x256 .f32 := shapeCast S1x256 b shapeCasts_S256_S1x256

/-- The hidden array: layer 0 of the first neighbourhood mean, the node features and the first layer's parameters. -/
def hidden (c : Dev nD) : Mat 50000 256 :=
  layer0K (M := 50000) (K := 128) (Cert.ReferenceIdeal.ReadP.val_main_v21 (F := Ideal) (m ((c.tc : Thread nD τ).loc main_arg0)) (m ((c.tc : Thread nD τ).loc main_arg1)))
    (m ((c.tc : Thread nD τ).loc main_arg0)) (m ((c.tc : Thread nD τ).loc main_arg2)) (m ((c.tc : Thread nD τ).loc main_arg4))
    (asRow (m ((c.tc : Thread nD τ).loc main_arg3))) (asRow (m ((c.tc : Thread nD τ).loc main_arg8))) (asRow (m ((c.tc : Thread nD τ).loc main_arg9))) (asRow (m ((c.tc : Thread nD τ).loc main_arg10))) (asRow (m ((c.tc : Thread nD τ).loc main_arg11)))

/-- A buffer the first tiled computation does not touch holds, at its exit, what the first host stretch left. -/
theorem W2_keep (c : Dev nD) (b : Ref sig .tc) (hb : ∀ w, Pipeline.arrRef spec0 w ≠ b) :
    W2 m ρ c (Proc.devRef .tc b) = after hostOps0 (W0 m ρ c) (Proc.devRef .tc b) :=
  W2_of_ne m ρ c b hb

/-- At the first tiled computation's exit its output array is the hidden array. -/
theorem W2_hidden (c : Dev nD) : W2 m ρ c (Proc.devRef .tc main_v27) = hidden m c := by
  refine (W2_arr m ρ c 9).trans ?_
  rw [Cert.KFinal.final0 (V1 m ρ) c]
  show layer0K (M := 50000) (K := 128) (after hostOps0 (W0 m ρ c) (Proc.devRef .tc main_v21))
      (after hostOps0 (W0 m ρ c) (Proc.devRef .tc main_arg0)) (after hostOps0 (W0 m ρ c) (Proc.devRef .tc main_arg2))
      (after hostOps0 (W0 m ρ c) (Proc.devRef .tc main_arg4)) (after hostOps0 (W0 m ρ c) (Proc.devRef .tc main_v22))
      (after hostOps0 (W0 m ρ c) (Proc.devRef .tc main_v23)) (after hostOps0 (W0 m ρ c) (Proc.devRef .tc main_v24))
      (after hostOps0 (W0 m ρ c) (Proc.devRef .tc main_v25)) (after hostOps0 (W0 m ρ c) (Proc.devRef .tc main_v26)) = _
  rw [s0_v21, s0_arg0, s0_arg2, s0_arg4, s0_v22, s0_v23, s0_v24, s0_v25, s0_v26]
  rfl

/-- The result buffer at the end of the run. -/
theorem value (c : Dev nD) : W4 m ρ c (Proc.devRef .tc main_v41)
    = layer1K (M := 50000) (K := 256)
        (Cert.RefAgg.aggOf (F := Ideal) (hidden m c) (Cert.ReferenceIdeal.ReadP.val_main_v1 (F := Ideal) (m ((c.tc : Thread nD τ).loc main_arg1)))
          (Cert.ReferenceIdeal.ReadP.val_main_v3 (F := Ideal) (m ((c.tc : Thread nD τ).loc main_arg1))) (Cert.ReferenceIdeal.ReadP.val_main_v19 (F := Ideal) (m ((c.tc : Thread nD τ).loc main_arg1))))
        (hidden m c) (m ((c.tc : Thread nD τ).loc main_arg5)) (m ((c.tc : Thread nD τ).loc main_arg7)) (asRow (m ((c.tc : Thread nD τ).loc main_arg6))) := by
  refine (W4_arr m ρ c 5).trans ?_
  rw [Cert.KFinal.final1 (V3 m ρ) c]
  show layer1K (M := 50000) (K := 256) (after hostOps1 (W2 m ρ c) (Proc.devRef .tc main_v39))
      (after hostOps1 (W2 m ρ c) (Proc.devRef .tc main_v27)) (after hostOps1 (W2 m ρ c) (Proc.devRef .tc main_arg5))
      (after hostOps1 (W2 m ρ c) (Proc.devRef .tc main_arg7)) (after hostOps1 (W2 m ρ c) (Proc.devRef .tc main_v40)) = _
  rw [s1_v39, s1_v27, s1_arg5, s1_arg7, s1_v40, W2_hidden m ρ c,
    W2_keep m ρ c main_v1 (by decide), W2_keep m ρ c main_v3 (by decide), W2_keep m ρ c main_v9 (by decide),
    W2_keep m ρ c main_arg5 (by decide), W2_keep m ρ c main_arg6 (by decide), W2_keep m ρ c main_arg7 (by decide),
    s0_v1, s0_v3, s0_v9, s0_arg5, s0_arg6, s0_arg7]

end Cert.KValue

end
-- ==== Proof.RowRead.lean ====
/-
  A node's row read off host arithmetic, at the extended reals. The whole-array program computes a layer as a chain
  of entrywise operations, row sums and repeats; read at the entry (r, q) each stretch of that chain is one of the
  row functions of `RowSpec` at column q, fed row r of its operand:

  * the two products plus the bias give the affine row `pre`;
  * an entry over the floored root of its row's sum of squares (the sum started at the zero word) gives `unit`;
  * minus the mean, times the scale over the root of variance plus offset, plus the shift, rectified, gives `normR`.

  Each is stated over arbitrary arrays, so the same fact serves every place the pattern occurs. The layers of
  `ArrSpec` at an entry (r, q) are the compositions of these row functions.
-/
import proofs.«104896_j3023656976611_1_alg».proof.Proof.ArrSpec
import Idealize.ShloMosaic.PureOps.Ideal.Laws
import Idealize.ShloMosaic.Lib.ValueIdx

noncomputable section

open scoped BigOperators

namespace Cert.RowRead

open Idealize.ShloMosaic Idealize.ShloMosaic.ValueIdx Cert.ArrSpec Cert.RowSpec

variable {M K : ℕ}

/-- Row r of an array at column k is the array's entry (r, k). -/
theorem rowOf_apply {N : ℕ} (X : Mat M N) (r : Fin M) (k : Fin N) : rowOf X r k = X (ix2 r k) := rfl

/-- The affine entry: the row of A against column q of Wl, plus the bias entry, plus the row of X against column q of Wr. -/
theorem pre_read (A X : FVec Ideal ⟨2, ![M, K]⟩ .f32) (Wl Wr : FVec Ideal ⟨2, ![K, 256]⟩ .f32)
    (bl : FVec Ideal ⟨1, ![256]⟩ .f32) (r : Fin M) (q : Fin 256) :
    FloatOps.addf (F := Ideal) (φ := .f32)
        (FloatOps.addf (F := Ideal) (φ := .f32) (∑ k : Fin K, A (ix2 r k) * Wl (ix2 k q)) (bl (ix1 q)))
        (∑ k : Fin K, X (ix2 r k) * Wr (ix2 k q))
      = pre (rowOf A r) (rowOf X r) (ent Wl) (ent Wr) (vecv bl) q := rfl

/-- The unit-length entry: the entry over the floored root of the row's sum of squares, the sum started at the zero word. -/
theorem unit_read (V : FVec Ideal ⟨2, ![M, 256]⟩ .f32) (r : Fin M) (q : Fin 256) :
    FloatOps.hostDivf (F := Ideal) (φ := .f32) (V (ix2 r q))
        (FloatOps.maximumf (F := Ideal) (φ := .f32)
          (FloatOps.hostUnary (F := Ideal) (φ := .f32) HostUnaryOp.sqrt
            (FloatOps.ofBits (F := Ideal) .f32 0x00000000#32 + ∑ k : Fin 256, mulf V V (ix2 r k)))
          (FloatOps.ofBits (F := Ideal) .f32 0x2B8CBCCC#32))
      = unit (rowOf V r) q := by
  have h0 : FloatOps.ofBits (F := Ideal) .f32 0x00000000#32 = (0 : EReal) := zero_eq
  rw [h0, zero_add]
  rfl

/-- The normalised, rectified entry, the column scale a quotient by the root of the variance plus the offset word. -/
theorem norm_read (U : FVec Ideal ⟨2, ![M, 256]⟩ .f32) (g b mu var : FVec Ideal ⟨1, ![256]⟩ .f32) (r : Fin M) (q : Fin 256) :
    FloatOps.maximumf (F := Ideal) (φ := .f32)
        (FloatOps.addf (F := Ideal) (φ := .f32)
          (FloatOps.mulf (F := Ideal) (φ := .f32)
            (FloatOps.subf (F := Ideal) (φ := .f32) (U (ix2 r q)) (mu (ix1 q)))
            (FloatOps.hostDivf (F := Ideal) (φ := .f32) (g (ix1 q))
              (FloatOps.hostUnary (F := Ideal) (φ := .f32) HostUnaryOp.sqrt
                (FloatOps.addf (F := Ideal) (φ := .f32) (var (ix1 q)) (FloatOps.ofBits (F := Ideal) .f32 0x3727C5AC#32)))))
          (b (ix1 q)))
        (FloatOps.ofBits (F := Ideal) .f32 0x00000000#32)
      = normR (vecv g) (vecv b) (vecv mu) (vecv var) (rowOf U r) q := rfl

/-- Layer 0 at an entry: the normalisation of the unit-length affine row. -/
theorem layer0R_apply (A X : Mat M K) (Wl Wr : Mat K 256) (bl g b mu var : Vc 256) (r : Fin M) (q : Fin 256) :
    layer0R A X Wl Wr bl g b mu var (ix2 r q)
      = normR (vecv g) (vecv b) (vecv mu) (vecv var) (unit (pre (rowOf A r) (rowOf X r) (ent Wl) (ent Wr) (vecv bl))) q := rfl

/-- Layer 1 at an entry: the affine row scaled to unit length twice. -/
theorem layer1R_apply (A H : Mat M K) (Wl Wr : Mat K 256) (bl : Vc 256) (r : Fin M) (q : Fin 256) :
    layer1R A H Wl Wr bl (ix2 r q) = unit (unit (pre (rowOf A r) (rowOf H r) (ent Wl) (ent Wr) (vecv bl))) q := rfl

end Cert.RowRead

end
-- ==== Proof.RefLayer0.lean ====
/-
  The reference's first layer, entry by entry: its hidden array (after the rectifier) is layer 0 — parameters as
  vectors, the column scale spelt as a quotient by the square root — of its first aggregation and the node features.

  The layer is read in three stretches. At the entry (r, q): the affine array holds the affine row of node r at
  column q; the array scaled to unit length holds that row over its floored length (the length column is read at
  (r, 0), whatever q is); the hidden array holds the normalised, rectified entry. The aggregation stays a black box.
-/
import proofs.«104896_j3023656976611_1_alg».proof.Proof.RefReadP
import proofs.«104896_j3023656976611_1_alg».proof.Proof.ArrSpec
import proofs.«104896_j3023656976611_1_alg».proof.Proof.LibDense
import proofs.«104896_j3023656976611_1_alg».proof.Proof.LibKeepdims
import proofs.«104896_j3023656976611_1_alg».proof.Proof.LibRectify
import proofs.«104896_j3023656976611_1_alg».proof.Proof.RowRead

set_option maxRecDepth 16384

noncomputable section

namespace Cert.RefLayer

open Cert.ReferenceIdeal Cert.ReferenceIdeal.ReadP Idealize.ShloMosaic Idealize.ShloMosaic.ValueIdx Cert.ArrSpec Cert.RowSpec Cert.RowRead

/-! ## The composed index maps at an entry (r, q) -/

theorem lidx22 (r : Fin 50000) (q : Fin 256) (k : Fin 128) : lidx_main_v22 (ix2 r q) k = ix2 r k :=
  funext fun a => Fin.ext (by match a with | ⟨0, _⟩ => rfl | ⟨1, _⟩ => rfl)
theorem ridx22 (r : Fin 50000) (q : Fin 256) (k : Fin 128) : ridx_main_v22 (ix2 r q) k = ix2 k q :=
  funext fun a => Fin.ext (by match a with | ⟨0, _⟩ => rfl | ⟨1, _⟩ => rfl)
theorem lidx26 (r : Fin 50000) (q : Fin 256) (k : Fin 128) : lidx_main_v26 (ix2 r q) k = ix2 r k :=
  funext fun a => Fin.ext (by match a with | ⟨0, _⟩ => rfl | ⟨1, _⟩ => rfl)
theorem ridx26 (r : Fin 50000) (q : Fin 256) (k : Fin 128) : ridx_main_v26 (ix2 r q) k = ix2 k q :=
  funext fun a => Fin.ext (by match a with | ⟨0, _⟩ => rfl | ⟨1, _⟩ => rfl)
theorem idx23 (r : Fin 50000) (q : Fin 256) : idx_main_v23 (idx_main_v24 (ix2 r q)) = ix1 q :=
  funext fun a => Fin.ext (by match a with | ⟨0, _⟩ => rfl)
theorem idx29 (r : Fin 50000) (q : Fin 256) (k : Fin 256) :
    idx_main_v29 (idx_main_v30 (idx_main_v34 (ix2 r q))) k = ix2 r k :=
  funext fun a => Fin.ext (by match a with | ⟨0, _⟩ => rfl | ⟨1, _⟩ => rfl)
theorem idx36 (r : Fin 50000) (q : Fin 256) : idx_main_v36 (idx_main_v37 (ix2 r q)) = ix1 q :=
  funext fun a => Fin.ext (by match a with | ⟨0, _⟩ => rfl)
theorem idx43 (r : Fin 50000) (q : Fin 256) : idx_main_v43 (idx_main_v44 (ix2 r q)) = ix1 q :=
  funext fun a => Fin.ext (by match a with | ⟨0, _⟩ => rfl)
theorem idx46 (r : Fin 50000) (q : Fin 256) : idx_main_v46 (idx_main_v47 (ix2 r q)) = ix1 q :=
  funext fun a => Fin.ext (by match a with | ⟨0, _⟩ => rfl)

/-! ## The three stretches of the layer at an entry -/

/-- Entry (r, q) of the affine array is the affine row of node r at column q. -/
theorem pre0_apply (x0 : FVec Ideal S50000x128 .f32) (x1 : (⟨S2x640000, .i32⟩ : BufTy).Contents (Elt Ideal)) (x2 : FVec Ideal S128x256 .f32) (x3 : FVec Ideal S256 .f32) (x4 : FVec Ideal S128x256 .f32) (r : Fin 50000) (q : Fin 256) :
    val_main_v27 (F := Ideal) x0 x1 x2 x3 x4 (ix2 r q)
      = pre (rowOf (M := 50000) (N := 128) (val_main_v21 (F := Ideal) x0 x1) r) (rowOf (M := 50000) (N := 128) x0 r)
          (ent (K := 128) (N := 256) x2) (ent (K := 128) (N := 256) x4) (vecv (N := 256) x3) q := by
  rw [val_main_v27_apply, val_main_v25_apply, val_main_v22_apply, val_main_v24_apply, val_main_v23_apply, val_main_v26_apply]
  generalize val_main_v21 (F := Ideal) x0 x1 = A
  simp only [lidx22, ridx22, lidx26, ridx26, idx23]
  exact id (pre_read (M := 50000) (K := 128) A x0 x2 x4 x3 r q)

/-- Row r of the affine array. -/
theorem pre0_row (x0 : FVec Ideal S50000x128 .f32) (x1 : (⟨S2x640000, .i32⟩ : BufTy).Contents (Elt Ideal)) (x2 : FVec Ideal S128x256 .f32) (x3 : FVec Ideal S256 .f32) (x4 : FVec Ideal S128x256 .f32) (r : Fin 50000) :
    rowOf (M := 50000) (N := 256) (val_main_v27 (F := Ideal) x0 x1 x2 x3 x4) r
      = pre (rowOf (M := 50000) (N := 128) (val_main_v21 (F := Ideal) x0 x1) r) (rowOf (M := 50000) (N := 128) x0 r)
          (ent (K := 128) (N := 256) x2) (ent (K := 128) (N := 256) x4) (vecv (N := 256) x3) :=
  funext fun q => (rowOf_apply _ r q).trans (pre0_apply x0 x1 x2 x3 x4 r q)

/-- Entry (r, q) of the array scaled to unit length: the length column is read at (r, 0), where it holds the floored
    length of row r. -/
theorem unit0_apply (x0 : FVec Ideal S50000x128 .f32) (x1 : (⟨S2x640000, .i32⟩ : BufTy).Contents (Elt Ideal)) (x2 : FVec Ideal S128x256 .f32) (x3 : FVec Ideal S256 .f32) (x4 : FVec Ideal S128x256 .f32) (r : Fin 50000) (q : Fin 256) :
    val_main_v35 (F := Ideal) x0 x1 x2 x3 x4 (ix2 r q)
      = unit (rowOf (M := 50000) (N := 256) (val_main_v27 (F := Ideal) x0 x1 x2 x3 x4) r) q := by
  rw [val_main_v35_apply, val_main_v34_apply, val_main_v33_apply, val_main_v31_apply, val_main_v30_apply,
    val_main_v29_apply, val_main_v32_apply, val_main_cst_5_apply, val_main_cst_4_apply]
  unfold val_main_v28
  generalize val_main_v27 (F := Ideal) x0 x1 x2 x3 x4 = V
  simp only [idx29]
  exact id (unit_read (M := 50000) V r q)

/-- Row r of the array scaled to unit length. -/
theorem unit0_row (x0 : FVec Ideal S50000x128 .f32) (x1 : (⟨S2x640000, .i32⟩ : BufTy).Contents (Elt Ideal)) (x2 : FVec Ideal S128x256 .f32) (x3 : FVec Ideal S256 .f32) (x4 : FVec Ideal S128x256 .f32) (r : Fin 50000) :
    rowOf (M := 50000) (N := 256) (val_main_v35 (F := Ideal) x0 x1 x2 x3 x4) r
      = unit (rowOf (M := 50000) (N := 256) (val_main_v27 (F := Ideal) x0 x1 x2 x3 x4) r) :=
  funext fun q => (rowOf_apply _ r q).trans (unit0_apply x0 x1 x2 x3 x4 r q)

/-- Entry (r, q) of the hidden array: the unit-length entry minus the mean, times the column scale, plus the shift,
    rectified. -/
theorem norm0_apply (x0 : FVec Ideal S50000x128 .f32) (x1 : (⟨S2x640000, .i32⟩ : BufTy).Contents (Elt Ideal)) (x2 : FVec Ideal S128x256 .f32) (x3 : FVec Ideal S256 .f32) (x4 : FVec Ideal S128x256 .f32) (x8 x9 x10 x11 : FVec Ideal S256 .f32) (r : Fin 50000) (q : Fin 256) :
    val_main_v49 (F := Ideal) x0 x1 x2 x3 x4 x8 x9 x10 x11 (ix2 r q)
      = normR (vecv (N := 256) x8) (vecv (N := 256) x9) (vecv (N := 256) x10) (vecv (N := 256) x11)
          (rowOf (M := 50000) (N := 256) (val_main_v35 (F := Ideal) x0 x1 x2 x3 x4) r) q := by
  rw [val_main_v49_apply, val_main_v48_apply, val_main_v45_apply, val_main_v38_apply, val_main_v37_apply, val_main_v36_apply,
    val_main_v44_apply, val_main_v43_apply, val_main_v42_apply, val_main_v41_apply, val_main_v40_apply, val_main_v39_apply,
    val_main_cst_6_apply, val_main_v47_apply, val_main_v46_apply, val_main_call0_v0_apply, val_main_call0_cst_apply]
  generalize val_main_v35 (F := Ideal) x0 x1 x2 x3 x4 = U
  simp only [idx36, idx43, idx46]
  exact id (norm_read (M := 50000) U x8 x9 x10 x11 r q)

/-- The reference's hidden array is layer 0 of its first aggregation `val_main_v21 x0 x1`, the node features `x0`, the
    weights `x2`, `x4`, the bias `x3` and the normalisation vectors `x8` (scale), `x9` (shift), `x10` (mean), `x11` (variance). -/
theorem layer0 (x0 : FVec Ideal S50000x128 .f32) (x1 : (⟨S2x640000, .i32⟩ : BufTy).Contents (Elt Ideal)) (x2 : FVec Ideal S128x256 .f32) (x3 : FVec Ideal S256 .f32) (x4 : FVec Ideal S128x256 .f32) (x8 x9 x10 x11 : FVec Ideal S256 .f32) :
    val_main_v49 (F := Ideal) x0 x1 x2 x3 x4 x8 x9 x10 x11
      = layer0R (M := 50000) (K := 128) (val_main_v21 (F := Ideal) x0 x1) x0 x2 x4 x3 x8 x9 x10 x11 := by
  funext i
  obtain ⟨r, q, rfl⟩ : ∃ (r : Fin 50000) (q : Fin 256), i = ix2 r q := ⟨i 0, i 1, eq_ix2 i⟩
  rw [layer0R_apply, ← pre0_row x0 x1 x2 x3 x4 r, ← unit0_row x0 x1 x2 x3 x4 r]
  exact norm0_apply x0 x1 x2 x3 x4 x8 x9 x10 x11 r q

end Cert.RefLayer

end
-- ==== Proof.RefLayer1.lean ====
/-
  The reference's second layer, entry by entry: its result is layer 1 — the bias as a vector — of its second
  aggregation and its hidden array.

  The layer is read in three stretches. At the entry (r, q): the affine array holds the affine row of node r at
  column q; scaled to unit length once it holds that row over its floored length; scaled again it holds the scaled
  row over its own floored length. The aggregation and the hidden array stay black boxes.
-/
import proofs.«104896_j3023656976611_1_alg».proof.Proof.RefReadP
import proofs.«104896_j3023656976611_1_alg».proof.Proof.ArrSpec
import proofs.«104896_j3023656976611_1_alg».proof.Proof.LibDense
import proofs.«104896_j3023656976611_1_alg».proof.Proof.LibKeepdims
import proofs.«104896_j3023656976611_1_alg».proof.Proof.RowRead

set_option maxRecDepth 16384

noncomputable section

namespace Cert.RefLayer

open Cert.ReferenceIdeal Cert.ReferenceIdeal.ReadP Idealize.ShloMosaic Idealize.ShloMosaic.ValueIdx Cert.ArrSpec Cert.RowSpec Cert.RowRead

/-! ## The composed index maps at an entry (r, q) -/

theorem lidx68 (r : Fin 50000) (q : Fin 256) (k : Fin 256) : lidx_main_v68 (ix2 r q) k = ix2 r k :=
  funext fun a => Fin.ext (by match a with | ⟨0, _⟩ => rfl | ⟨1, _⟩ => rfl)
theorem ridx68 (r : Fin 50000) (q : Fin 256) (k : Fin 256) : ridx_main_v68 (ix2 r q) k = ix2 k q :=
  funext fun a => Fin.ext (by match a with | ⟨0, _⟩ => rfl | ⟨1, _⟩ => rfl)
theorem lidx72 (r : Fin 50000) (q : Fin 256) (k : Fin 256) : lidx_main_v72 (ix2 r q) k = ix2 r k :=
  funext fun a => Fin.ext (by match a with | ⟨0, _⟩ => rfl | ⟨1, _⟩ => rfl)
theorem ridx72 (r : Fin 50000) (q : Fin 256) (k : Fin 256) : ridx_main_v72 (ix2 r q) k = ix2 k q :=
  funext fun a => Fin.ext (by match a with | ⟨0, _⟩ => rfl | ⟨1, _⟩ => rfl)
theorem idx69 (r : Fin 50000) (q : Fin 256) : idx_main_v69 (idx_main_v70 (ix2 r q)) = ix1 q :=
  funext fun a => Fin.ext (by match a with | ⟨0, _⟩ => rfl)
theorem idx75 (r : Fin 50000) (q : Fin 256) (k : Fin 256) :
    idx_main_v75 (idx_main_v76 (idx_main_v80 (ix2 r q))) k = ix2 r k :=
  funext fun a => Fin.ext (by match a with | ⟨0, _⟩ => rfl | ⟨1, _⟩ => rfl)
theorem idx83 (r : Fin 50000) (q : Fin 256) (k : Fin 256) :
    idx_main_v83 (idx_main_v84 (idx_main_v88 (ix2 r q))) k = ix2 r k :=
  funext fun a => Fin.ext (by match a with | ⟨0, _⟩ => rfl | ⟨1, _⟩ => rfl)

/-! ## The three stretches of the layer at an entry -/

/-- Entry (r, q) of the affine array is the affine row of node r at column q. -/
theorem pre1_apply (x0 : FVec Ideal S50000x128 .f32) (x1 : (⟨S2x640000, .i32⟩ : BufTy).Contents (Elt Ideal)) (x2 : FVec Ideal S128x256 .f32) (x3 : FVec Ideal S256 .f32) (x4 : FVec Ideal S128x256 .f32) (x5 : FVec Ideal S256x256 .f32) (x6 : FVec Ideal S256 .f32) (x7 : FVec Ideal S256x256 .f32) (x8 x9 x10 x11 : FVec Ideal S256 .f32) (r : Fin 50000) (q : Fin 256) :
    val_main_v73 (F := Ideal) x0 x1 x2 x3 x4 x5 x6 x7 x8 x9 x10 x11 (ix2 r q)
      = pre (rowOf (M := 50000) (N := 256) (val_main_v67 (F := Ideal) x0 x1 x2 x3 x4 x8 x9 x10 x11) r)
          (rowOf (M := 50000) (N := 256) (val_main_v49 (F := Ideal) x0 x1 x2 x3 x4 x8 x9 x10 x11) r)
          (ent (K := 256) (N := 256) x5) (ent (K := 256) (N := 256) x7) (vecv (N := 256) x6) q := by
  rw [val_main_v73_apply, val_main_v71_apply, val_main_v68_apply, val_main_v70_apply, val_main_v69_apply, val_main_v72_apply]
  generalize val_main_v67 (F := Ideal) x0 x1 x2 x3 x4 x8 x9 x10 x11 = A
  generalize val_main_v49 (F := Ideal) x0 x1 x2 x3 x4 x8 x9 x10 x11 = H
  simp only [lidx68, ridx68, lidx72, ridx72, idx69]
  exact id (pre_read (M := 50000) (K := 256) A H x5 x7 x6 r q)

/-- Row r of the affine array. -/
theorem pre1_row (x0 : FVec Ideal S50000x128 .f32) (x1 : (⟨S2x640000, .i32⟩ : BufTy).Contents (Elt Ideal)) (x2 : FVec Ideal S128x256 .f32) (x3 : FVec Ideal S256 .f32) (x4 : FVec Ideal S128x256 .f32) (x5 : FVec Ideal S256x256 .f32) (x6 : FVec Ideal S256 .f32) (x7 : FVec Ideal S256x256 .f32) (x8 x9 x10 x11 : FVec Ideal S256 .f32) (r : Fin 50000) :
    rowOf (M := 50000) (N := 256) (val_main_v73 (F := Ideal) x0 x1 x2 x3 x4 x5 x6 x7 x8 x9 x10 x11) r
      = pre (rowOf (M := 50000) (N := 256) (val_main_v67 (F := Ideal) x0 x1 x2 x3 x4 x8 x9 x10 x11) r)
          (rowOf (M := 50000) (N := 256) (val_main_v49 (F := Ideal) x0 x1 x2 x3 x4 x8 x9 x10 x11) r)
          (ent (K := 256) (N := 256) x5) (ent (K := 256) (N := 256) x7) (vecv (N := 256) x6) :=
  funext fun q => (rowOf_apply _ r q).trans (pre1_apply x0 x1 x2 x3 x4 x5 x6 x7 x8 x9 x10 x11 r q)

/-- Entry (r, q) of the array scaled to unit length once: the length column is read at (r, 0), where it holds the
    floored length of row r. -/
theorem unit1_apply (x0 : FVec Ideal S50000x128 .f32) (x1 : (⟨S2x640000, .i32⟩ : BufTy).Contents (Elt Ideal)) (x2 : FVec Ideal S128x256 .f32) (x3 : FVec Ideal S256 .f32) (x4 : FVec Ideal S128x256 .f32) (x5 : FVec Ideal S256x256 .f32) (x6 : FVec Ideal S256 .f32) (x7 : FVec Ideal S256x256 .f32) (x8 x9 x10 x11 : FVec Ideal S256 .f32) (r : Fin 50000) (q : Fin 256) :
    val_main_v81 (F := Ideal) x0 x1 x2 x3 x4 x5 x6 x7 x8 x9 x10 x11 (ix2 r q)
      = unit (rowOf (M := 50000) (N := 256) (val_main_v73 (F := Ideal) x0 x1 x2 x3 x4 x5 x6 x7 x8 x9 x10 x11) r) q := by
  rw [val_main_v81_apply, val_main_v80_apply, val_main_v79_apply, val_main_v77_apply, val_main_v76_apply,
    val_main_v75_apply, val_main_v78_apply, val_main_cst_14_apply, val_main_cst_13_apply]
  unfold val_main_v74
  generalize val_main_v73 (F := Ideal) x0 x1 x2 x3 x4 x5 x6 x7 x8 x9 x10 x11 = V
  simp only [idx75]
  exact id (unit_read (M := 50000) V r q)

/-- Row r of the array scaled to unit length once. -/
theorem unit1_row (x0 : FVec Ideal S50000x128 .f32) (x1 : (⟨S2x640000, .i32⟩ : BufTy).Contents (Elt Ideal)) (x2 : FVec Ideal S128x256 .f32) (x3 : FVec Ideal S256 .f32) (x4 : FVec Ideal S128x256 .f32) (x5 : FVec Ideal S256x256 .f32) (x6 : FVec Ideal S256 .f32) (x7 : FVec Ideal S256x256 .f32) (x8 x9 x10 x11 : FVec Ideal S256 .f32) (r : Fin 50000) :
    rowOf (M := 50000) (N := 256) (val_main_v81 (F := Ideal) x0 x1 x2 x3 x4 x5 x6 x7 x8 x9 x10 x11) r
      = unit (rowOf (M := 50000) (N := 256) (val_main_v73 (F := Ideal) x0 x1 x2 x3 x4 x5 x6 x7 x8 x9 x10 x11) r) :=
  funext fun q => (rowOf_apply _ r q).trans (unit1_apply x0 x1 x2 x3 x4 x5 x6 x7 x8 x9 x10 x11 r q)

/-- Entry (r, q) of the result: the once-scaled array scaled to unit length again. -/
theorem unit2_apply (x0 : FVec Ideal S50000x128 .f32) (x1 : (⟨S2x640000, .i32⟩ : BufTy).Contents (Elt Ideal)) (x2 : FVec Ideal S128x256 .f32) (x3 : FVec Ideal S256 .f32) (x4 : FVec Ideal S128x256 .f32) (x5 : FVec Ideal S256x256 .f32) (x6 : FVec Ideal S256 .f32) (x7 : FVec Ideal S256x256 .f32) (x8 x9 x10 x11 : FVec Ideal S256 .f32) (r : Fin 50000) (q : Fin 256) :
    val_main_v89 (F := Ideal) x0 x1 x2 x3 x4 x5 x6 x7 x8 x9 x10 x11 (ix2 r q)
      = unit (rowOf (M := 50000) (N := 256) (val_main_v81 (F := Ideal) x0 x1 x2 x3 x4 x5 x6 x7 x8 x9 x10 x11) r) q := by
  rw [val_main_v89_apply, val_main_v88_apply, val_main_v87_apply, val_main_v85_apply, val_main_v84_apply,
    val_main_v83_apply, val_main_v86_apply, val_main_cst_16_apply, val_main_cst_15_apply]
  unfold val_main_v82
  generalize val_main_v81 (F := Ideal) x0 x1 x2 x3 x4 x5 x6 x7 x8 x9 x10 x11 = V
  simp only [idx83]
  exact id (unit_read (M := 50000) V r q)

/-- The reference's result is layer 1 of its second aggregation `val_main_v67 …`, its hidden array `val_main_v49 …`, the
    weights `x5`, `x7` and the bias `x6`. -/
theorem layer1 (x0 : FVec Ideal S50000x128 .f32) (x1 : (⟨S2x640000, .i32⟩ : BufTy).Contents (Elt Ideal)) (x2 : FVec Ideal S128x256 .f32) (x3 : FVec Ideal S256 .f32) (x4 : FVec Ideal S128x256 .f32) (x5 : FVec Ideal S256x256 .f32) (x6 : FVec Ideal S256 .f32) (x7 : FVec Ideal S256x256 .f32) (x8 x9 x10 x11 : FVec Ideal S256 .f32) :
    val_main_v89 (F := Ideal) x0 x1 x2 x3 x4 x5 x6 x7 x8 x9 x10 x11
      = layer1R (M := 50000) (K := 256) (val_main_v67 (F := Ideal) x0 x1 x2 x3 x4 x8 x9 x10 x11)
          (val_main_v49 (F := Ideal) x0 x1 x2 x3 x4 x8 x9 x10 x11) x5 x7 x6 := by
  funext i
  obtain ⟨r, q, rfl⟩ : ∃ (r : Fin 50000) (q : Fin 256), i = ix2 r q := ⟨i 0, i 1, eq_ix2 i⟩
  rw [layer1R_apply, ← pre1_row x0 x1 x2 x3 x4 x5 x6 x7 x8 x9 x10 x11 r, ← unit1_row x0 x1 x2 x3 x4 x5 x6 x7 x8 x9 x10 x11 r]
  exact unit2_apply x0 x1 x2 x3 x4 x5 x6 x7 x8 x9 x10 x11 r q

end Cert.RefLayer

end
-- ==== Proof.PreVar.lean ====
/-
  What the precondition says of the variance vector: its last two conjuncts are "every entry is finite in absolute
  value" and "every entry is at least zero", so every entry is a non-negative real.
-/
import proofs.«104896_j3023656976611_1_alg».proof.Pre_finite_inputs
import proofs.«104896_j3023656976611_1_alg».proof.Proof.Gen.Pre_finite_inputs
import Idealize.ShloMosaic.PureOps.Ideal.Laws
import Idealize.ShloMosaic.Lib.ValueIdx
import Idealize.ShloMosaic.Lib.ReduceAll

set_option maxRecDepth 16384

noncomputable section

namespace Cert.PreVar

open Cert.Pre_finite_inputs Idealize.ShloMosaic Idealize.ShloMosaic.ValueIdx

/-- A one-bit word made from a Boolean is 1 exactly when the Boolean is true. -/
theorem ofBool_one {b : Bool} (h : BitVec.ofBool b = 1#1) : b = true := by
  cases b
  · exact absurd h (by decide)
  · rfl

/-- An extended real whose absolute value `max x (-x)` lies below `⊤` and which is at least zero is a
    non-negative real: `⊥` is below zero, and at `⊤` the absolute value is `⊤` itself. -/
theorem real_of_abs_lt_top (x : EReal) (hfin : max x (-x) < ⊤) (hpos : 0 ≤ x) : ∃ r : ℝ, 0 ≤ r ∧ x = (r : EReal) := by
  induction x using EReal.rec with
  | bot => exact absurd hpos (by simp)
  | coe r => exact ⟨r, EReal.coe_nonneg.1 hpos, rfl⟩
  | top => exact absurd hfin (by simp)

/-- The last part of the precondition, read at its one index: when it is 1, both of the reductions it ends in, "every
    `x < y`" over the two vectors it is handed and "every entry of the last argument is at least the zero word", are 1
    at every entry. -/
theorem part3_last [Cert.Pre_finite_inputs.Facts] (a11 : FVec Ideal S256 .f32) (v48 : IVec S_ 1) (x y : FVec Ideal S256 .f32)
    (h : fn_part3 (F := Ideal) a11 v48 x y ix0 = 1#1) (i : S256.Idx) :
    x i < y i ∧ Ideal.ofBits .f32 0x00000000#32 ≤ a11 i := by
  -- the rank-0 shape has one index
  haveI : Subsingleton S_.Idx := ⟨fun a b => funext fun d => d.elim0⟩
  -- the result is (v48 ∧ all (x < y)) ∧ all (a11 ≥ 0), entrywise on one-bit words
  have h1 : IntOp.andi
      (IntOp.andi (v48 ix0)
        (Host.reduce IntOp.andi (cmpf .olt x y) (constantI S_ 1 1#1) Facts.reducesTo_S256_S_d0 Facts.h_S_ ix0))
      (Host.reduce IntOp.andi
        (cmpf .oge a11 (broadcastInDim S256 ![] Facts.bcast_S_S256 (constant (F := Ideal) S_ .f32 0x00000000#32)))
        (constantI S_ 1 1#1) Facts.reducesTo_S256_S_d0 Facts.h_S_ ix0) = 1#1 := h
  obtain ⟨h2, hge⟩ := IntOp.andi_eq_one.1 h1
  obtain ⟨-, hlt⟩ := IntOp.andi_eq_one.1 h2
  -- a reduction by `and` over every axis that is 1 met a 1 at every entry
  have hlt_i := Host.reduce_andi_all _ _ _ _ ix0 hlt i
  have hge_i := Host.reduce_andi_all _ _ _ _ ix0 hge i
  -- at an entry the comparison is the order's, and the splat of a rank-0 constant reads the constant
  have hlt' : BitVec.ofBool (decide (x i < y i)) = 1#1 := hlt_i
  have hge' : BitVec.ofBool (decide (Ideal.ofBits .f32 0x00000000#32 ≤ a11 i)) = 1#1 := hge_i
  exact ⟨of_decide_eq_true (ofBool_one hlt'), of_decide_eq_true (ofBool_one hge')⟩

/-- Under the precondition every entry of the variance vector (the last argument) is a non-negative real. -/
theorem var_nonneg [Cert.Pre_finite_inputs.Facts] (a0 : FVec Ideal S50000x128 .f32) (a1 : IVec S2x640000 32) (a2 : FVec Ideal S128x256 .f32)
    (a3 : FVec Ideal S256 .f32) (a4 : FVec Ideal S128x256 .f32) (a5 : FVec Ideal S256x256 .f32) (a6 : FVec Ideal S256 .f32)
    (a7 : FVec Ideal S256x256 .f32) (a8 a9 a10 a11 : FVec Ideal S256 .f32)
    (h : Cert.Pre_finite_inputs.fn (F := Ideal) a0 a1 a2 a3 a4 a5 a6 a7 a8 a9 a10 a11 = fun _ => 1#1) :
    ∀ j : Fin 256, ∃ r : ℝ, 0 ≤ r ∧ a11 (ix1 j) = (r : EReal) := by
  intro j
  -- the precondition's chain of operations ends in its last part, applied to the last argument, the conjunction
  -- so far, the absolute values of the last argument and the splat of the word of +∞
  have h0 : fn_part3 (F := Ideal) a11 _ (Host.absf a11)
      (broadcastInDim S256 ![] Facts.bcast_S_S256 (constant (F := Ideal) S_ .f32 0x7F800000#32)) ix0 = 1#1 := congrFun h ix0
  obtain ⟨hlt, hge⟩ := part3_last a11 _ _ _ h0 (ix1 j)
  -- the absolute value is max x (-x); the two words are +∞ and 0
  have hfin : max (a11 (ix1 j)) (-(a11 (ix1 j))) < (⊤ : EReal) := by
    have e : Ideal.ofBits .f32 0x7F800000#32 = (⊤ : EReal) := by simp [Ideal.ofBits, Ideal.ieee]
    exact e ▸ hlt
  have hpos : (0 : EReal) ≤ a11 (ix1 j) := by
    have e : Ideal.ofBits .f32 0x00000000#32 = (0 : EReal) := by simp [Ideal.ofBits, Ideal.ieee]
    exact e ▸ hge
  exact real_of_abs_lt_top _ hfin hpos

end Cert.PreVar

end
-- ==== Proof.Bridge.lean ====
/-
  The two programs compute one function. The tiled program's result is layer 1 of (the neighbourhood mean of its
  hidden array, the hidden array), its hidden array layer 0 of (the neighbourhood mean of the node features, the node
  features), with the parameter vectors laid out as rows and the column scale spelt with the reciprocal square root;
  the whole-array program's result and hidden array are the same layers with the parameters as vectors and the column
  scale spelt as a quotient by the square root. A vector laid out as a row holds the vector's entries; under the
  precondition every variance is a non-negative real, where the two spellings of the scale agree; and both programs
  form the neighbourhood means by the same operations. So both runs end with the same result array.
-/
import proofs.«104896_j3023656976611_1_alg».proof.Defs
import proofs.«104896_j3023656976611_1_alg».proof.Proof.Gen.KernelIdeal
import proofs.«104896_j3023656976611_1_alg».proof.Proof.Gen.ReferenceIdeal
import proofs.«104896_j3023656976611_1_alg».proof.Proof.Gen.Pre_finite_inputs
import proofs.«104896_j3023656976611_1_alg».proof.Proof.KRun
import proofs.«104896_j3023656976611_1_alg».proof.Proof.KValue
import proofs.«104896_j3023656976611_1_alg».proof.Proof.RefRun
import proofs.«104896_j3023656976611_1_alg».proof.Proof.RefLayer0
import proofs.«104896_j3023656976611_1_alg».proof.Proof.RefLayer1
import proofs.«104896_j3023656976611_1_alg».proof.Proof.RefAgg
import proofs.«104896_j3023656976611_1_alg».proof.Proof.PreVar

set_option maxRecDepth 16384

noncomputable section

namespace Cert.Bridge

open Idealize.ShloMosaic Idealize.ShloMosaic.TcCoe Idealize.ShloMosaic.ValueIdx Idealize.SL.Sem
open Cert.ArrSpec Cert.KValue Cert.ReferenceIdeal.ReadP

/-- A vector laid out as a row holds the vector's entries. -/
theorem rowv_asRow (b : FVec Ideal Cert.KernelIdeal.S256 .f32) : rowv (asRow b) = vecv b := by
  funext j
  exact congrFun (Cert.Lib.Dense.shapeCast_row b Cert.KernelIdeal.Gen.shapeCasts_S256_S1x256) (ix2 0 j)

/-- Layer 1 of (the mean of layer 0, layer 0), rows and reciprocal square root, is the whole-array program's last
    stage, once every variance is a non-negative real. -/
theorem layers_eq (x0 : FVec Ideal Cert.ReferenceIdeal.S50000x128 .f32) (x1 : (⟨Cert.ReferenceIdeal.S2x640000, .i32⟩ : BufTy).Contents (Elt Ideal))
    (x2 : FVec Ideal Cert.ReferenceIdeal.S128x256 .f32) (x3 : FVec Ideal Cert.ReferenceIdeal.S256 .f32) (x4 : FVec Ideal Cert.ReferenceIdeal.S128x256 .f32)
    (x5 : FVec Ideal Cert.ReferenceIdeal.S256x256 .f32) (x6 : FVec Ideal Cert.ReferenceIdeal.S256 .f32) (x7 : FVec Ideal Cert.ReferenceIdeal.S256x256 .f32)
    (x8 x9 x10 x11 : FVec Ideal Cert.ReferenceIdeal.S256 .f32)
    (hnn : ∀ j : Fin 256, ∃ r : ℝ, 0 ≤ r ∧ x11 (ix1 j) = (r : EReal)) :
    layer1K (M := 50000) (K := 256)
        (Cert.RefAgg.aggOf (F := Ideal)
          (layer0K (M := 50000) (K := 128) (val_main_v21 (F := Ideal) x0 x1) x0 x2 x4 (asRow x3) (asRow x8) (asRow x9) (asRow x10) (asRow x11))
          (val_main_v1 (F := Ideal) x1) (val_main_v3 (F := Ideal) x1) (val_main_v19 (F := Ideal) x1))
        (layer0K (M := 50000) (K := 128) (val_main_v21 (F := Ideal) x0 x1) x0 x2 x4 (asRow x3) (asRow x8) (asRow x9) (asRow x10) (asRow x11))
        x5 x7 (asRow x6)
      = val_main_v89 (F := Ideal) x0 x1 x2 x3 x4 x5 x6 x7 x8 x9 x10 x11 := by
  have h0 : layer0K (M := 50000) (K := 128) (val_main_v21 (F := Ideal) x0 x1) x0 x2 x4 (asRow x3) (asRow x8) (asRow x9) (asRow x10) (asRow x11)
      = val_main_v49 (F := Ideal) x0 x1 x2 x3 x4 x8 x9 x10 x11 :=
    (layer0_eq _ _ _ _ _ _ _ _ _ x3 x8 x9 x10 x11 (rowv_asRow x3) (rowv_asRow x8) (rowv_asRow x9) (rowv_asRow x10)
      (rowv_asRow x11) hnn).trans (Cert.RefLayer.layer0 x0 x1 x2 x3 x4 x8 x9 x10 x11).symm
  rw [h0, Cert.RefLayer.layer1 x0 x1 x2 x3 x4 x5 x6 x7 x8 x9 x10 x11, Cert.RefAgg.v67_eq, Cert.RefAgg.agg1_eq]
  exact layer1_eq _ _ _ _ (asRow x6) x6 (rowv_asRow x6)

/-- From memories agreeing on the arguments both programs run to the end and leave the same result array. -/
theorem algebraic : Cert.algebraic_KernelIdeal_ReferenceIdeal := by
  intro m ρ m' ρ' hpre hagree
  refine ⟨fun c => val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ⟨(h c).1.trans ?_, (h c).2⟩)
      (Cert.KRun.run_value (F := Ideal) m ρ)
    rw [Cert.KValue.value m ρ c]
    exact layers_eq _ _ _ _ _ _ _ _ _ _ _ _ (Cert.PreVar.var_nonneg _ _ _ _ _ _ _ _ _ _ _ _ (hpre c))
  · refine (θ_run Cert.ReferenceIdeal.defs _ _).mono (fun r h c => ⟨(h c).1.trans ?_, (h c).2⟩)
      (Cert.RefRun.run_val (F := Ideal) m' ρ')
    obtain ⟨e0, e1, e2, e3, e4, e5, e6, e7, e8, e9, e10, e11⟩ := hagree c
    rw [e0, e1, e2, e3, e4, e5, e6, e7, e8, e9, e10, e11]

end Cert.Bridge

end
-- ==== Proof.lean ====
/-
  A two-layer neighbourhood-mean network over 50000 nodes and 640000 edges: each layer averages every node's
  in-neighbours' rows (gather the source rows, add them at their destinations, divide by the in-degree floored at
  one), applies two dense maps with a bias, and scales each row to unit Euclidean length; the first layer then applies
  a per-column affine normalisation and the rectifier, the second scales to unit length once more. One program
  computes the dense part of each layer in 25 tiles of 2000 rows with the parameter vectors laid out as rows; the other
  computes it over the whole arrays. They agree over the extended reals as soon as every variance entry is a
  non-negative real: the only place they are spelt differently is the column scale, `g * rsqrt (var + eps)` against
  `g / sqrt (var + eps)`, and those are one value at a positive real `var + eps`.

  The three frames: the two tiled programs' are the generated launch certificates; the whole-array program's is its
  run with the result dropped. The idealization rewrote nothing, so it preserves the program trivially. The value claim
  is `Cert.Bridge.algebraic`: the tiled program's result buffer read back through its four segments (Proof/KValue.lean),
  each tile's block as the layer of its input blocks (Proof/KBlock0.lean, Proof/KBlock1.lean), the blocks assembled into
  the array (Proof/KFinal0.lean, Proof/KFinal1.lean), the whole-array program's stages read entry by entry
  (Proof/RefLayer0.lean, Proof/RefLayer1.lean) and its run (Proof/RefRun.lean), the variance facts decoded from the
  precondition (Proof/PreVar.lean), and the row arithmetic both sides meet at (Proof/RowSpec.lean, Proof/ArrSpec.lean).
-/
import proofs.«104896_j3023656976611_1_alg».proof.Defs
import proofs.«104896_j3023656976611_1_alg».proof.Proof.Gen.Kernel
import proofs.«104896_j3023656976611_1_alg».proof.Proof.Gen.Kernel.Frame
import proofs.«104896_j3023656976611_1_alg».proof.Proof.Gen.KernelIdeal
import proofs.«104896_j3023656976611_1_alg».proof.Proof.Gen.KernelIdeal.Frame
import proofs.«104896_j3023656976611_1_alg».proof.Proof.Gen.ReferenceIdeal
import proofs.«104896_j3023656976611_1_alg».proof.Proof.Gen.Pre_finite_inputs
import proofs.«104896_j3023656976611_1_alg».proof.Proof.RefRun
import proofs.«104896_j3023656976611_1_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.RefRun.run_val (F := Ideal) m ρ),
    trivial,
    Cert.Bridge.algebraic⟩

end Cert.Proof

end
